-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) (main_arg2 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  main_v13
-- ==== Kernel.lean ====
abbrev S8192x64 : Shape := ⟨2, ![8192, 64]⟩
abbrev S16384x64 : Shape := ⟨2, ![16384, 64]⟩
abbrev S_ : Shape := ⟨0, ![]⟩
abbrev S64 : Shape := ⟨1, ![64]⟩
abbrev S1x64 : Shape := ⟨2, ![1, 64]⟩
abbrev S1x8192x64 : Shape := ⟨3, ![1, 8192, 64]⟩
abbrev S2x8192x64 : Shape := ⟨3, ![2, 8192, 64]⟩
abbrev S2x8192 : Shape := ⟨2, ![2, 8192]⟩
abbrev S2x1024x64 : Shape := ⟨3, ![2, 1024, 64]⟩
abbrev S2x1024 : Shape := ⟨2, ![2, 1024]⟩
abbrev S1x1024x64 : Shape := ⟨3, ![1, 1024, 64]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1x1024 : Shape := ⟨2, ![1, 1024]⟩
abbrev S1x8192 : Shape := ⟨2, ![1, 8192]⟩
abbrev S8192 : Shape := ⟨1, ![8192]⟩

abbrev nBuf : Space → Nat
  | .hbm => 80
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S8192x64, .f32⟩
  | .hbm, ⟨5, _⟩ => ⟨S16384x64, .f32⟩
  | .hbm, ⟨6, _⟩ => ⟨S_, .f32⟩
  | .hbm, ⟨7, _⟩ => ⟨S16384x64, .f32⟩
  | .hbm, ⟨8, _⟩ => ⟨S16384x64, .f32⟩
  | .hbm, ⟨9, _⟩ => ⟨S16384x64, .f32⟩
  | .hbm, ⟨10, _⟩ => ⟨S_, .f32⟩
  | .hbm, ⟨11, _⟩ => ⟨S16384x64, .f32⟩
  | .hbm, ⟨12, _⟩ => ⟨S16384x64, .f32⟩
  | .hbm, ⟨13, _⟩ => ⟨S_, .i32⟩
  | .hbm, ⟨14, _⟩ => ⟨S_, .f32⟩
  | .hbm, ⟨15, _⟩ => ⟨S64, .f32⟩
  | .hbm, ⟨16, _⟩ => ⟨S1x64, .f32⟩
  | .hbm, ⟨17, _⟩ => ⟨S_, .f32⟩
  | .hbm, ⟨18, _⟩ => ⟨S1x64, .f32⟩
  | .hbm, ⟨19, _⟩ => ⟨S1x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .i32⟩
  | .hbm, ⟨37, _⟩ => ⟨S_, .f32⟩
  | .hbm, ⟨38, _⟩ => ⟨S64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S16384x64, .f32⟩
  | .hbm, ⟨44, _⟩ => ⟨S16384x64, .f32⟩
  | .hbm, ⟨45, _⟩ => ⟨S16384x64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S1x64, .f32⟩
  | .hbm, ⟨60, _⟩ => ⟨S8192x64, .f32⟩
  | .hbm, ⟨61, _⟩ => ⟨S8192x64, .f32⟩
  | .hbm, ⟨62, _⟩ => ⟨S8192x64, .bf16⟩
  | .hbm, ⟨63, _⟩ => ⟨S1x64, .f32⟩
  | .hbm, ⟨64, _⟩ => ⟨S8192x64, .f32⟩
  | .hbm, ⟨65, _⟩ => ⟨S8192x64, .f32⟩
  | .hbm, ⟨66, _⟩ => ⟨S8192x64, .bf16⟩
  | .hbm, ⟨67, _⟩ => ⟨S8192x64, .bf16⟩
  | .hbm, ⟨68, _⟩ => ⟨S8192x64, .bf16⟩
  | .hbm, ⟨69, _⟩ => ⟨S1x8192x64, .bf16⟩
  | .hbm, ⟨70, _⟩ => ⟨S1x8192x64, .bf16⟩
  | .hbm, ⟨71, _⟩ => ⟨S2x8192x64, .bf16⟩
  | .hbm, ⟨72, _⟩ => ⟨S1x8192x64, .bf16⟩
  | .hbm, ⟨73, _⟩ => ⟨S1x8192x64, .bf16⟩
  | .hbm, ⟨74, _⟩ => ⟨S2x8192x64, .bf16⟩
  | .hbm, ⟨75, _⟩ => ⟨S2x8192, .f32⟩
  | .hbm, ⟨76, _⟩ => ⟨S1x8192, .f32⟩
  | .hbm, ⟨77, _⟩ => ⟨S8192, .f32⟩
  | .hbm, ⟨78, _⟩ => ⟨S1x8192, .f32⟩
  | .hbm, ⟨79, _⟩ => ⟨S8192, .f32⟩
  | .local _ .vmem, ⟨0, _⟩ => ⟨S2x1024x64, .bf16⟩
  | .local _ .vmem, ⟨1, _⟩ => ⟨S2x1024x64, .bf16⟩
  | .local _ .vmem, ⟨2, _⟩ => ⟨S2x1024x64, .bf16⟩
  | .local _ .vmem, ⟨3, _⟩ => ⟨S2x1024x64, .bf16⟩
  | .local _ .vmem, ⟨4, _⟩ => ⟨S2x1024, .f32⟩
  | .local _ .vmem, ⟨5, _⟩ => ⟨S2x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v8 : Ref sig .tc := ⟨.hbm, 35, rfl⟩
abbrev main_c_1 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_cst_3 : Ref sig .tc := ⟨.hbm, 53, rfl⟩
abbrev main_call1_v12 : Ref sig .tc := ⟨.hbm, 54, rfl⟩
abbrev main_call1_cst_4 : Ref sig .tc := ⟨.hbm, 55, rfl⟩
abbrev main_call1_call0_v0 : Ref sig .tc := ⟨.hbm, 56, rfl⟩
abbrev main_call1_call0_v1 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S8192x64_S8192x64_S16384x64_d0 : Shape.Concatenates [S8192x64, S8192x64] S16384x64 0
  bcast_S_S16384x64 : S_.BroadcastsInDim S16384x64 (![] : Fin 0 → Fin S16384x64.rank)
  reducesTo_S16384x64_S64_d0 : S16384x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S16384x64_0_1 : S1x64.BroadcastsInDim S16384x64 (![0, 1] : Fin 2 → Fin S16384x64.rank)
  bcast_S_S64 : S_.BroadcastsInDim S64 (![] : Fin 0 → Fin S64.rank)
  bcast_S1x64_S8192x64_0_1 : S1x64.BroadcastsInDim S8192x64 (![0, 1] : Fin 2 → Fin S8192x64.rank)
  bitsLt_bf16_f32 : FTy.bits .bf16 < FTy.bits .f32
  bcast_S8192x64_S1x8192x64_1_2 : S8192x64.BroadcastsInDim S1x8192x64 (![1, 2] : Fin 2 → Fin S1x8192x64.rank)
  concatenates_S1x8192x64_S1x8192x64_S2x8192x64_d0 : Shape.Concatenates [S1x8192x64, S1x8192x64] S2x8192x64 0
  inb_S2x1024_S2x1024_0_0 : ∀ a, (![0, 0] : Fin 2 → Nat) a + S2x1024.size a ≤ S2x1024.size a
  h_S2x1024 : 0 < S2x1024.numel
  inb_S2x1024x64_S1x1024x64_0_0_0 : ∀ a, (![0, 0, 0] : Fin 3 → Nat) a + S1x1024x64.size a ≤ S2x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  reduces_S1024x1024_S1024 : S1024x1024.Reduces [1] S1024
  inb_S2x1024_S1x1024_0_0 : ∀ a, (![0, 0] : Fin 2 → Nat) a + S1x1024.size a ≤ S2x1024.size a
  h_S1x1024 : 0 < S1x1024.numel
  shapeCasts_S1x1024_S1024 : S1x1024.ShapeCasts S1024
  shapeCasts_S1024_S1x1024 : S1024.ShapeCasts S1x1024
  inb_S2x1024x64_S1x1024x64_1_0_0 : ∀ a, (![1, 0, 0] : Fin 3 → Nat) a + S1x1024x64.size a ≤ S2x1024x64.size a
  inb_S2x1024_S1x1024_1_0 : ∀ a, (![1, 0] : Fin 2 → Nat) a + S1x1024.size a ≤ S2x1024.size a
  slices_S2x8192_S1x8192_0_0 : S2x8192.Slices ![0, 0] S1x8192
  shapeCasts_S1x8192_S8192 : S1x8192.ShapeCasts S8192
  slices_S2x8192_S1x8192_1_0 : S2x8192.Slices ![1, 0] S1x8192
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x64.size a ≤ S2x8192x64.size a
  hwx0_0 : ∀ i : grid0.Coords, EltTy.bits .bf16 = 32 ∨ (Rect.block (s := S2x8192x64) S2x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x64.size a ≤ S2x8192x64.size a
  hwx0_1 : ∀ i : grid0.Coords, EltTy.bits .bf16 = 32 ∨ (Rect.block (s := S2x8192x64) S2x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x8192.size a
  hwx0_2 : ∀ i : grid0.Coords, EltTy.bits .f32 = 32 ∨ (Rect.block (s := S2x8192) S2x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v22) S2x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S16384x64 : Shape := ⟨2, ![16384, 64]⟩
abbrev S_ : Shape := ⟨0, ![]⟩
abbrev S64 : Shape := ⟨1, ![64]⟩
abbrev S1x64 : Shape := ⟨2, ![1, 64]⟩
abbrev S8192x8192 : Shape := ⟨2, ![8192, 8192]⟩
abbrev S8192 : Shape := ⟨1, ![8192]⟩

abbrev nBuf : Space → Nat
  | .hbm => 101
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S16384x64, .f32⟩
  | .hbm, ⟨4, _⟩ => ⟨S_, .f32⟩
  | .hbm, ⟨5, _⟩ => ⟨S16384x64, .f32⟩
  | .hbm, ⟨6, _⟩ => ⟨S16384x64, .f32⟩
  | .hbm, ⟨7, _⟩ => ⟨S_, .i32⟩
  | .hbm, ⟨8, _⟩ => ⟨S_, .f32⟩
  | .hbm, ⟨9, _⟩ => ⟨S64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S8192x64, .f32⟩
  | .hbm, ⟨31, _⟩ => ⟨S1x64, .f32⟩
  | .hbm, ⟨32, _⟩ => ⟨S8192x64, .f32⟩
  | .hbm, ⟨33, _⟩ => ⟨S8192x64, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S16384x64, .f32⟩
  | .hbm, ⟨51, _⟩ => ⟨S_, .f32⟩
  | .hbm, ⟨52, _⟩ => ⟨S16384x64, .f32⟩
  | .hbm, ⟨53, _⟩ => ⟨S16384x64, .f32⟩
  | .hbm, ⟨54, _⟩ => ⟨S_, .i32⟩
  | .hbm, ⟨55, _⟩ => ⟨S_, .f32⟩
  | .hbm, ⟨56, _⟩ => ⟨S64, .f32⟩
  | .hbm, ⟨57, _⟩ => ⟨S1x64, .f32⟩
  | .hbm, ⟨58, _⟩ => ⟨S_, .f32⟩
  | .hbm, ⟨59, _⟩ => ⟨S1x64, .f32⟩
  | .hbm, ⟨60, _⟩ => ⟨S1x64, .f32⟩
  | .hbm, ⟨61, _⟩ => ⟨S16384x64, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S8192x64, .f32⟩
  | .hbm, ⟨78, _⟩ => ⟨S1x64, .f32⟩
  | .hbm, ⟨79, _⟩ => ⟨S8192x64, .f32⟩
  | .hbm, ⟨80, _⟩ => ⟨S8192x64, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .i1⟩
  | .hbm, ⟨85, _⟩ => ⟨S_, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S_, .f32⟩
  | .hbm, ⟨91, _⟩ => ⟨S_, .f32⟩
  | .hbm, ⟨92, _⟩ => ⟨S8192x8192, .f32⟩
  | .hbm, ⟨93, _⟩ => ⟨S8192x8192, .f32⟩
  | .hbm, ⟨94, _⟩ => ⟨S_, .f32⟩
  | .hbm, ⟨95, _⟩ => ⟨S8192x8192, .f32⟩
  | .hbm, ⟨96, _⟩ => ⟨S8192x8192, .f32⟩
  | .hbm, ⟨97, _⟩ => ⟨S_, .f32⟩
  | .hbm, ⟨98, _⟩ => ⟨S8192, .f32⟩
  | .hbm, ⟨99, _⟩ => ⟨S_, .f32⟩
  | .hbm, ⟨100, _⟩ => ⟨S8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_cst_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_cst_2 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_cst_3 : Ref sig .tc := ⟨.hbm, 24, rfl⟩
abbrev main_call0_v12 : Ref sig .tc := ⟨.hbm, 25, rfl⟩
abbrev main_call0_cst_4 : Ref sig .tc := ⟨.hbm, 26, rfl⟩
abbrev main_call0_call0_v0 : Ref sig .tc := ⟨.hbm, 27, rfl⟩
abbrev main_call0_call0_v1 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_v11 : Ref sig .tc := ⟨.hbm, 41, rfl⟩
abbrev main_v12 : Ref sig .tc := ⟨.hbm, 42, rfl⟩
abbrev main_cst_2 : Ref sig .tc := ⟨.hbm, 43, rfl⟩
abbrev main_call2_v0 : Ref sig .tc := ⟨.hbm, 44, rfl⟩
abbrev main_call2_v1 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_4 : Ref sig .tc := ⟨.hbm, 51, rfl⟩
abbrev main_v17 : Ref sig .tc := ⟨.hbm, 52, rfl⟩
abbrev main_v18 : Ref sig .tc := ⟨.hbm, 53, rfl⟩
abbrev main_c_5 : Ref sig .tc := ⟨.hbm, 54, rfl⟩
abbrev main_call3_cst : Ref sig .tc := ⟨.hbm, 55, rfl⟩
abbrev main_call3_v0 : Ref sig .tc := ⟨.hbm, 56, rfl⟩
abbrev main_call3_v1 : Ref sig .tc := ⟨.hbm, 57, rfl⟩
abbrev main_call3_cst_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_v6 : Ref sig .tc := ⟨.hbm, 63, rfl⟩
abbrev main_call3_v7 : Ref sig .tc := ⟨.hbm, 64, rfl⟩
abbrev main_call3_cst_1 : Ref sig .tc := ⟨.hbm, 65, rfl⟩
abbrev main_call3_v8 : Ref sig .tc := ⟨.hbm, 66, rfl⟩
abbrev main_call3_cst_2 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_cst_3 : Ref sig .tc := ⟨.hbm, 71, rfl⟩
abbrev main_call3_v12 : Ref sig .tc := ⟨.hbm, 72, rfl⟩
abbrev main_call3_cst_4 : Ref sig .tc := ⟨.hbm, 73, rfl⟩
abbrev main_call3_call0_v0 : Ref sig .tc := ⟨.hbm, 74, rfl⟩
abbrev main_call3_call0_v1 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_cst_6 : Ref sig .tc := ⟨.hbm, 82, rfl⟩
abbrev main_v25 : Ref sig .tc := ⟨.hbm, 83, rfl⟩
abbrev main_v26 : Ref sig .tc := ⟨.hbm, 84, rfl⟩
abbrev main_cst_7 : Ref sig .tc := ⟨.hbm, 85, rfl⟩
abbrev main_call4_v0 : Ref sig .tc := ⟨.hbm, 86, rfl⟩
abbrev main_call4_v1 : Ref sig .tc := ⟨.hbm, 87, rfl⟩
abbrev main_v27 : Ref sig .tc := ⟨.hbm, 88, rfl⟩
abbrev main_v28 : Ref sig .tc := ⟨.hbm, 89, rfl⟩
abbrev main_cst_8 : Ref sig .tc := ⟨.hbm, 90, rfl⟩
abbrev main_call5_v0 : Ref sig .tc := ⟨.hbm, 91, rfl⟩
abbrev main_call5_v1 : Ref sig .tc := ⟨.hbm, 92, rfl⟩
abbrev main_v29 : Ref sig .tc := ⟨.hbm, 93, rfl⟩
abbrev main_cst_9 : Ref sig .tc := ⟨.hbm, 94, rfl⟩
abbrev main_v30 : Ref sig .tc := ⟨.hbm, 95, rfl⟩
abbrev main_v31 : Ref sig .tc := ⟨.hbm, 96, rfl⟩
abbrev main_cst_10 : Ref sig .tc := ⟨.hbm, 97, rfl⟩
abbrev main_v32 : Ref sig .tc := ⟨.hbm, 98, rfl⟩
abbrev main_cst_11 : Ref sig .tc := ⟨.hbm, 99, rfl⟩
abbrev main_v33 : Ref sig .tc := ⟨.hbm, 100, rfl⟩

abbrev nD : Nat := 1
abbrev τ : Topo := Topo.v7x

variable {F : FTy → Type} [FloatOps F]

class Facts₀ : Prop where
  concatenates_S8192x64_S8192x64_S16384x64_d0 : Shape.Concatenates [S8192x64, S8192x64] S16384x64 0
  bcast_S_S16384x64 : S_.BroadcastsInDim S16384x64 (![] : Fin 0 → Fin S16384x64.rank)
  reducesTo_S16384x64_S64_d0 : S16384x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S16384x64_0_1 : S1x64.BroadcastsInDim S16384x64 (![0, 1] : Fin 2 → Fin S16384x64.rank)
  bcast_S_S64 : S_.BroadcastsInDim S64 (![] : Fin 0 → Fin S64.rank)
  bcast_S1x64_S8192x64_0_1 : S1x64.BroadcastsInDim S8192x64 (![0, 1] : Fin 2 → Fin S8192x64.rank)
  bcast_S_S8192x8192 : S_.BroadcastsInDim S8192x8192 (![] : Fin 0 → Fin S8192x8192.rank)
  reducesTo_S8192x8192_S8192_d1 : S8192x8192.ReducesTo [1] S8192
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.MdSpec.lean ====
/-
  The mathematics both programs compute, stated once over the extended reals and over literal shapes, with no
  program in sight.

  For one pair (anchor, other) let  diff = anchor - other  (8192 x 64),  s = diff / var  (the per-feature variance
  broadcast along the rows) and, for rows n, k,
      q n k = sum over d < 64 of  s (n, d) * diff (k, d).
  The masked root of an extended real q is  md q = 0 where q < 0, else sqrt q  (the square root applied to 1 at the
  masked entries, as both programs spell it).  The reference's result at row n is
      rowsum n = 0 + sum over k < 8192 of (md (q n k) + e6),            e6 the f32 word nearest 1e-6,
  and the kernel's, accumulated over eight column tiles of 1024 columns from a zero block, is
      kacc n = 0 + sum over J < 8 of ((sum over l < 1024 of md (q n (1024 J + l))) + c),   c the f32 word of 1.024e-3.
  The two agree because c = 1024 * e6 EXACTLY (the same significand, the exponent ten higher) and because addition of
  extended reals is commutative and associative: no finiteness is needed anywhere.
-/
import Idealize.ShloMosaic.PureOps.Ideal
import Idealize.ShloMosaic.PureOps.Ideal.Laws
import Idealize.ShloMosaic.Lib.ValueIdx

noncomputable section

namespace Cert.Md

open Idealize.ShloMosaic Idealize.ShloMosaic.ValueIdx

/-- The f32 words the two programs spell, as the extended reals they denote. -/
abbrev Z : EReal := Ideal.ofBits .f32 0x00000000#32
abbrev One : EReal := Ideal.ofBits .f32 0x3F800000#32
abbrev E6 : EReal := Ideal.ofBits .f32 0x358637BD#32
abbrev C : EReal := Ideal.ofBits .f32 0x3A8637BD#32

/-- The masked root: zero where q is negative, else the square root of q (taken of 1 at the masked places). -/
def md (q : EReal) : EReal :=
  Scalar.select (Ideal.cmp .olt q Z) Z (Ideal.sqrt (Scalar.select (Ideal.cmp .olt q Z) One q))

/-- q n k for one pair: the contraction over the 64 features of row n of s with row k of r. -/
def dotAt (s r : (⟨2, ![8192, 64]⟩ : Shape).Idx → EReal) (n k : Fin 8192) : EReal :=
  ∑ d : Fin 64, s (ix2 n d) * r (ix2 k d)

/-- The reference's row sum at row n: the zero word plus the sum over all 8192 columns of (masked root + e6). -/
def rowsum (s r : (⟨2, ![8192, 64]⟩ : Shape).Idx → EReal) (n : Fin 8192) : EReal :=
  Z + ∑ k : Fin 8192, (md (dotAt s r n k) + E6)

/-- Column l of column tile J. -/
def colIdx (J : Fin 8) (l : Fin 1024) : Fin 8192 := ⟨1024 * J.val + l.val, by have := J.isLt; have := l.isLt; omega⟩

/-- Row r of row tile I. -/
def rowIdx (I : Fin 8) (r : Fin 1024) : Fin 8192 := ⟨1024 * I.val + r.val, by have := I.isLt; have := r.isLt; omega⟩

/-- One grid point's contribution for pair b at block row r: over the point's two staged blocks (2 x 1024 x 64 each), the
    sum over the 1024 block columns l of the masked root of the contraction of row r of x0 with row l of x1. -/
def tile (x0 x1 : (⟨3, ![2, 1024, 64]⟩ : Shape).Idx → EReal) (b : Fin 2) (r : Fin 1024) : EReal :=
  ∑ l : Fin 1024, md (∑ d : Fin 64, x0 (ix3 b r d) * x1 (ix3 b l d))

/-- The same over the whole stacked arrays (2 x 8192 x 64): pair b, row n, column tile J. -/
def ktile (S R : (⟨3, ![2, 8192, 64]⟩ : Shape).Idx → EReal) (b : Fin 2) (n : Fin 8192) (J : Fin 8) : EReal :=
  ∑ l : Fin 1024, md (∑ d : Fin 64, S (ix3 b n d) * R (ix3 b (colIdx J l) d))

/-- The kernel's accumulated row sum for pair b at row n: from the zero word, the eight column tiles' sums each with c added. -/
def kacc (S R : (⟨3, ![2, 8192, 64]⟩ : Shape).Idx → EReal) (b : Fin 2) (n : Fin 8192) : EReal :=
  Z + ∑ J : Fin 8, (ktile S R b n J + C)

end Cert.Md

end
-- ==== Proof.KPieces.lean ====
/-
  What one grid point of the kernel leaves in the output block (2 x 1024), entry by entry over the extended reals:
  at a point that resets (the first column tile of a row tile) the zero word plus the point's tile sum plus c; at any
  other point what the block held plus the tile sum plus c.  The tile sum for pair b at block row r is the sum over
  the 1024 block columns of the masked root of the contraction of row r of the first staged block with that column's
  row of the second.
-/
import proofs.«427105_j86861418594470_3_alg».proof.Proof.Gen.KernelIdeal.Frame
import proofs.«427105_j86861418594470_3_alg».proof.Proof.MdSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

/-! ## The row rectangles of the block and of the staged slabs -/

theorem hz2 : (![0, 0] : Fin 2 → Nat) = fun _ => 0 := funext fun a => by fin_cases a <;> rfl

/-- Entry (0, r) of the one-row rectangle at row o of the 2 x 1024 block is the block's entry (b, r), b = o. -/
theorem idx_row (o : Nat) (inb : ∀ a, (![o, 0] : Fin 2 → Nat) a + S1x1024.size a ≤ S2x1024.size a) (b : Fin 2) (hb : b.val = o)
    (r : Fin 1024) : (Rect.unit (s := S2x1024) ![o, 0] S1x1024.size inb).idx (ix2 (0 : Fin 1) r) = ix2 b r :=
  funext fun a => Fin.ext (by
    match a with
    | ⟨0, _⟩ => show o + 1 * 0 = b.val; omega
    | ⟨1, _⟩ => show 0 + 1 * r.val = r.val; omega)

/-- Entry (0, p, d) of the one-slab rectangle at slab o of a 2 x 1024 x 64 staged block is the block's entry (b, p, d), b = o. -/
theorem idx_slab (o : Nat) (inb : ∀ a, (![o, 0, 0] : Fin 3 → Nat) a + S1x1024x64.size a ≤ S2x1024x64.size a) (b : Fin 2)
    (hb : b.val = o) (p : Fin 1024) (d : Fin 64) :
    (Rect.unit (s := S2x1024x64) ![o, 0, 0] S1x1024x64.size inb).idx (ix3 (0 : Fin 1) p d) = ix3 b p d :=
  funext fun a => Fin.ext (by
    match a with
    | ⟨0, _⟩ => show o + 1 * 0 = b.val; omega
    | ⟨1, _⟩ => show 0 + 1 * p.val = p.val; omega
    | ⟨2, _⟩ => show 0 + 1 * d.val = d.val; omega)

section Canon
variable {Val : EltTy → Type} [∀ e, Nonempty (Val e)]

/-- A last store through row o leaves, at the block's entry (b, r) with b = o, its payload's entry (0, r); -/
theorem canon_row_hit (o : Nat) (inb : ∀ a, (![o, 0] : Fin 2 → Nat) a + S1x1024.size a ≤ S2x1024.size a)
    (w : (Rect.unit (s := S2x1024) ![o, 0] S1x1024.size inb).shape.Idx → Val .f32) (L : List (View.Piece Val S2x1024 .f32))
    (b : Fin 2) (hb : b.val = o) (r : Fin 1024) :
    View.canon (⟨Rect.unit (s := S2x1024) ![o, 0] S1x1024.size inb, w⟩ :: L) (ix2 b r) = w (ix2 (0 : Fin 1) r) :=
  (congrArg (View.canon (⟨Rect.unit (s := S2x1024) ![o, 0] S1x1024.size inb, w⟩ :: L)) (idx_row o inb b hb r).symm).trans
    (View.canon_cons_emb _ w L (ix2 (0 : Fin 1) r))

/-- and at an entry of the other row it leaves what the earlier stores left. -/
theorem canon_row_miss (o : Nat) (inb : ∀ a, (![o, 0] : Fin 2 → Nat) a + S1x1024.size a ≤ S2x1024.size a)
    (w : (Rect.unit (s := S2x1024) ![o, 0] S1x1024.size inb).shape.Idx → Val .f32) (L : List (View.Piece Val S2x1024 .f32))
    (b : Fin 2) (hb : b.val ≠ o) (r : Fin 1024) :
    View.canon (⟨Rect.unit (s := S2x1024) ![o, 0] S1x1024.size inb, w⟩ :: L) (ix2 b r) = View.canon L (ix2 b r) :=
  View.canon_cons_of_not_mem _ L fun hm => by
    have hm' : ix2 b r ∈ (Rect.unit (s := S2x1024) ![o, 0] S1x1024.size inb).set := hm
    have h1 : o ≤ b.val ∧ b.val < o + 1 := (Rect.mem_set_unit.mp hm') (0 : Fin 2)
    have := b.isLt
    omega

end Canon

/-! ## The payloads at an entry, over the extended reals -/

open scoped BigOperators

theorem lhs_ax0 (j : S1024x1024.Idx) (k : dot_S1024x64_S64x1024_S1024x1024_1_0_0_1_n_n.contr.Idx) :
    (dot_S1024x64_S64x1024_S1024x1024_1_0_0_1_n_n.lhsIdx j k (0 : Fin S1024x64.rank)).val = (j (0 : Fin S1024x1024.rank)).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl

theorem lhs_ax1 (j : S1024x1024.Idx) (k : dot_S1024x64_S64x1024_S1024x1024_1_0_0_1_n_n.contr.Idx) :
    (dot_S1024x64_S64x1024_S1024x1024_1_0_0_1_n_n.lhsIdx j k (1 : Fin S1024x64.rank)).val = (k ⟨0, by decide⟩).val :=
  dot_S1024x64_S64x1024_S1024x1024_1_0_0_1_n_n.lhsIdx_val_of_single rfl j k

theorem rhs_ax0 (j : S1024x1024.Idx) (k : dot_S1024x64_S64x1024_S1024x1024_1_0_0_1_n_n.contr.Idx) :
    (dot_S1024x64_S64x1024_S1024x1024_1_0_0_1_n_n.rhsIdx j k (0 : Fin S64x1024.rank)).val = (k ⟨0, by decide⟩).val :=
  dot_S1024x64_S64x1024_S1024x1024_1_0_0_1_n_n.rhsIdx_val_of_single rfl j k

theorem rhs_ax1 (j : S1024x1024.Idx) (k : dot_S1024x64_S64x1024_S1024x1024_1_0_0_1_n_n.contr.Idx) :
    (dot_S1024x64_S64x1024_S1024x1024_1_0_0_1_n_n.rhsIdx j k (1 : Fin S64x1024.rank)).val = (j (1 : Fin S1024x1024.rank)).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- The product into the zero block, entry (p, q): the sum over the 64 features of row p of A times column q of B. -/
theorem mm_apply (A : FVec Ideal S1024x64 .bf16) (B : FVec Ideal S64x1024 .bf16) (p q : Fin 1024) :
    matmul dot_S1024x64_S64x1024_S1024x1024_1_0_0_1_n_n none A B (constant (F := Ideal) S1024x1024 .f32 0x00000000#32) (ix2 p q)
      = ∑ d : Fin 64, A (ix2 p d) * B (ix2 d q) := by
  refine (Ideal.matmul_constant_zero_apply dot_S1024x64_S64x1024_S1024x1024_1_0_0_1_n_n none A B (ix2 p q)).trans ?_
  rw [← Equiv.sum_comp (contrEquiv1 dot_S1024x64_S64x1024_S1024x1024_1_0_0_1_n_n 64 rfl rfl).symm]
  refine Finset.sum_congr rfl fun d _ => ?_
  have hk : (((contrEquiv1 dot_S1024x64_S64x1024_S1024x1024_1_0_0_1_n_n 64 rfl rfl).symm d) ⟨0, by decide⟩ : ℕ) = d.val :=
    contrEquiv1_symm_val dot_S1024x64_S64x1024_S1024x1024_1_0_0_1_n_n 64 rfl rfl d
  have hl : dot_S1024x64_S64x1024_S1024x1024_1_0_0_1_n_n.lhsIdx (ix2 p q) ((contrEquiv1 dot_S1024x64_S64x1024_S1024x1024_1_0_0_1_n_n 64 rfl rfl).symm d) = ix2 p d :=
    funext fun a => Fin.ext (by
      match a with
      | ⟨0, _⟩ => exact lhs_ax0 _ _
      | ⟨1, _⟩ => exact (lhs_ax1 _ _).trans hk)
  have hr : dot_S1024x64_S64x1024_S1024x1024_1_0_0_1_n_n.rhsIdx (ix2 p q) ((contrEquiv1 dot_S1024x64_S64x1024_S1024x1024_1_0_0_1_n_n 64 rfl rfl).symm d) = ix2 d q :=
    funext fun a => Fin.ext (by
      match a with
      | ⟨0, _⟩ => exact (rhs_ax0 _ _).trans hk
      | ⟨1, _⟩ => exact rhs_ax1 _ _)
  rw [hl, hr]

/-- The reduced index (r) with column l put back on the dropped axis is (r, l). -/
theorem lift_row (h : S1024x1024.Reduces [1] S1024) (r l : Fin 1024) : h.lift (ix1 r) l = ix2 r l :=
  funext fun a => Fin.ext (by match a with | ⟨0, _⟩ => rfl | ⟨1, _⟩ => rfl)

/-- A sum along the second axis of a 1024 x 1024 block, at row r: the sum over the columns of the row's entries. -/
theorem lane_sum_apply (w : FVec Ideal S1024x1024 .f32) (h : S1024x1024.Reduces [1] S1024) (hφ : FKind.Formats .f32)
    (hacc : (0x00000000#32 : BitVec FTy.f32.bits) = FKind.add.neutral .f32 hφ) (r : Fin 1024) :
    multiReduction (F := Ideal) .add [1] S1024 w 0x00000000#32 h hφ hacc (ix1 r) = ∑ l : Fin 1024, w (ix2 r l) :=
  (Ideal.multiReduction_add_single w _ h hφ hacc (ix1 r)).trans
    (Finset.sum_congr rfl fun l _ => congrArg w (lift_row h r l))

/-- The product block of one pair, entry (p, q): the contraction over the features of row p of the first staged slab
    with row q of the second. -/
theorem pay4_apply (v25 v27 : FVec Ideal S1x1024x64 .bf16) (p q : Fin 1024) :
    k0_pay4 (F := Ideal) v25 v27 (ix2 p q) = ∑ d : Fin 64, v25 (ix3 (0 : Fin 1) p d) * v27 (ix3 (0 : Fin 1) q d) := by
  unfold k0_pay4
  refine (mm_apply _ _ p q).trans ?_
  refine Finset.sum_congr rfl fun d _ => ?_
  exact congrArg₂ (· * ·) (shapeCast_1ab_ab_apply v25 _ p d)
    ((transpose_ix2_apply _ _ d q).trans (shapeCast_1ab_ab_apply v27 _ q d))

/-- One pair's store, entry (0, r): the loaded row plus (the sum over the block's columns of the masked root of the
    product block's row r, plus c). -/
theorem pay1_apply (v30 : FVec Ideal S1024x1024 .f32) (v41 : FVec Ideal S1x1024 .f32) (r : Fin 1024) :
    k0_pay1 (F := Ideal) v30 v41 (ix2 (0 : Fin 1) r)
      = v41 (ix2 (0 : Fin 1) r) + ((∑ l : Fin 1024, Cert.Md.md (v30 (ix2 r l))) + Cert.Md.C) := by
  unfold k0_pay1
  refine (shapeCast_a_1a_apply _ _ (0 : Fin 1) r).trans ?_
  refine (addf_apply _ _ _).trans ?_
  refine congrArg₂ (· + ·) (shapeCast_1a_a_apply v41 _ r) ?_
  refine (addf_apply _ _ _).trans ?_
  refine congrArg₂ (· + ·) ?_ rfl
  refine (lane_sum_apply _ _ _ _ r).trans ?_
  exact Finset.sum_congr rfl fun l _ => rfl

/-- Pair 0's store is pair 1's arithmetic over pair 0's product block. -/
theorem pay3_eq (v3 v5 : Vec Ideal S1x1024x64 .bf16) (v19 : Vec Ideal S1x1024 .f32) :
    k0_pay3 (F := Ideal) v3 v5 v19 = k0_pay1 (F := Ideal) (k0_pay4 (F := Ideal) v3 v5) v19 := rfl

/-! ## One row's store at an entry -/

/-- Row o's store, entry (0, r): what was loaded there plus (the tile sum of pair b = o at block row r, plus c) — the
    product block read entry by entry over the two staged slabs of pair b. -/
theorem store_apply (o : Nat) (inb : ∀ a, (![o, 0, 0] : Fin 3 → Nat) a + S1x1024x64.size a ≤ S2x1024x64.size a) (b : Fin 2)
    (hb : b.val = o) (x0 x1 : Vec Ideal S2x1024x64 .bf16) (v : Vec Ideal S1x1024 .f32) (r : Fin 1024) :
    k0_pay1 (F := Ideal)
        (k0_pay4 (F := Ideal) (View.ld x0 (Rect.unit (s := S2x1024x64) ![o, 0, 0] S1x1024x64.size inb))
          (View.ld x1 (Rect.unit (s := S2x1024x64) ![o, 0, 0] S1x1024x64.size inb))) v (ix2 (0 : Fin 1) r)
      = v (ix2 (0 : Fin 1) r) + (Cert.Md.tile x0 x1 b r + Cert.Md.C) := by
  refine (pay1_apply _ v r).trans ?_
  refine congrArg (fun t => v (ix2 (0 : Fin 1) r) + (t + Cert.Md.C)) ?_
  unfold Cert.Md.tile
  refine Finset.sum_congr rfl fun l _ => congrArg Cert.Md.md ?_
  refine (pay4_apply _ _ r l).trans ?_
  exact Finset.sum_congr rfl fun d _ =>
    congrArg₂ (· * ·) (congrArg x0 (idx_slab o inb b hb r d)) (congrArg x1 (idx_slab o inb b hb l d))

/-- The zero block holds the zero word at every entry. -/
theorem pay2_apply (y : S2x1024.Idx) : k0_pay2 (F := Ideal) y = Cert.Md.Z := rfl

/-! ## The two cases -/

/-- A resetting point: the block ends at the zero word plus (tile sum + c). -/
theorem out_A_apply (c : Dev nD) (i : grid0.Coords) (a2 : Memref sig .tc .vmem S2x1024x64 .bf16) (h2 : a2.IsWhole)
    (a3 : Memref sig .tc .vmem S2x1024x64 .bf16) (h3 : a3.IsWhole) (a4 : Memref sig .tc .vmem S2x1024 .f32) (h4 : a4.IsWhole) (hc : cond0_0 i)
    (x0 x1 : Vec Ideal S2x1024x64 .bf16) (b : Fin 2) (r : Fin 1024) :
    out0_A_2 (F := Ideal) c i a2 h2 a3 h3 a4 h4 hc x0 x1 (ix2 b r) = Cert.Md.Z + (Cert.Md.tile x0 x1 b r + Cert.Md.C) := by
  unfold out0_A_2
  rw [View.read_writes_eq_canon _ _ _ (cover0_A_2 c i a2 h2 a3 h3 a4 h4 hc x0 x1)]
  unfold kernelRun0_A
  dsimp only
  sl_unfold_words
  simp only [View.readAt_eq_ld, h2.read_unread, h3.read_unread]
  rcases (show b.val = 0 ∨ b.val = 1 by omega) with hb | hb
  · -- row 0: the later store (row 1) misses it; pair 0's store loaded row 0 of the zero block
    refine (canon_row_miss 1 _ _ _ b (by omega) r).trans ?_
    refine (canon_row_hit 0 _ _ _ b hb r).trans ?_
    refine (congrFun (pay3_eq _ _ _) _).trans ?_
    refine (store_apply 0 _ b hb x0 x1 _ r).trans ?_
    refine congrArg (· + (Cert.Md.tile x0 x1 b r + Cert.Md.C)) ?_
    refine (congrFun (View.readCov_eq_canon' _ _ _) _).trans ?_
    refine (congrArg (View.canon _) (idx_row 0 _ b hb r)).trans ?_
    exact (congrFun (View.canon_unit_zero hz2 _ _) _).trans (pay2_apply _)
  · -- row 1: the last store is pair 1's, and it loaded row 1 of the zero block, which pair 0's store misses
    refine (canon_row_hit 1 _ _ _ b hb r).trans ?_
    refine (store_apply 1 _ b hb x0 x1 _ r).trans ?_
    refine congrArg (· + (Cert.Md.tile x0 x1 b r + Cert.Md.C)) ?_
    refine (congrFun (View.readCov_eq_canon' _ _ _) _).trans ?_
    refine (congrArg (View.canon _) (idx_row 1 _ b hb r)).trans ?_
    refine (canon_row_miss 0 _ _ _ b (by omega) r).trans ?_
    exact (congrFun (View.canon_unit_zero hz2 _ _) _).trans (pay2_apply _)

/-- Any other point: the block ends at what it held plus (tile sum + c). -/
theorem out_B_apply (c : Dev nD) (i : grid0.Coords) (a2 : Memref sig .tc .vmem S2x1024x64 .bf16) (h2 : a2.IsWhole)
    (a3 : Memref sig .tc .vmem S2x1024x64 .bf16) (h3 : a3.IsWhole) (a4 : Memref sig .tc .vmem S2x1024 .f32) (h4 : a4.IsWhole) (hc : ¬cond0_0 i)
    (x0 x1 : Vec Ideal S2x1024x64 .bf16) (xo : Vec Ideal S2x1024 .f32) (b : Fin 2) (r : Fin 1024) :
    out0_B_2 (F := Ideal) c i a2 h2 a3 h3 a4 h4 hc x0 x1 xo (ix2 b r) = xo (ix2 b r) + (Cert.Md.tile x0 x1 b r + Cert.Md.C) := by
  unfold out0_B_2
  rw [View.read_writes_eq_canon _ _ _ (cover0_B_2 c i a2 h2 a3 h3 a4 h4 hc x0 x1 xo)]
  unfold kernelRun0_B
  dsimp only
  sl_unfold_words
  simp only [View.readAt_eq_ld, h2.read_unread, h3.read_unread, h4.read_unread]
  rcases (show b.val = 0 ∨ b.val = 1 by omega) with hb | hb
  · -- row 0: the later store (row 1) misses it; the earlier store is pair 0's
    refine (canon_row_miss 1 _ _ _ b (by omega) r).trans ?_
    refine (canon_row_hit 0 _ _ _ b hb r).trans ?_
    refine (congrFun (pay3_eq _ _ _) _).trans ?_
    refine (store_apply 0 _ b hb x0 x1 _ r).trans ?_
    exact congrArg (· + (Cert.Md.tile x0 x1 b r + Cert.Md.C)) (congrArg xo (idx_row 0 _ b hb r))
  · -- row 1: the last store is pair 1's
    refine (canon_row_hit 1 _ _ _ b hb r).trans ?_
    refine (store_apply 1 _ b hb x0 x1 _ r).trans ?_
    exact congrArg (· + (Cert.Md.tile x0 x1 b r + Cert.Md.C)) (congrArg xo (idx_row 1 _ b hb r))

end Cert.KernelIdeal.KV

end
-- ==== Proof.KAccum.lean ====
/-
  The kernel's result array (2 x 8192) after the run, entry by entry: for pair b and row n the zero word plus, over the
  eight column tiles, the tile's sum of masked roots plus c — the accumulation along the grid's second axis read off
  the per-point contents by induction on the point, and the one write-back per row tile (at its last column tile).
-/
import proofs.«427105_j86861418594470_3_alg».proof.Proof.KPieces

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-! ## The staged blocks, read off the stacked arrays -/

/-- The two stacked input arrays and each point's two staged blocks, at their literal types. -/
abbrev sarr (c : Dev nD) : Vec Ideal S2x8192x64 .bf16 := V m c main_v22
abbrev rarr (c : Dev nD) : Vec Ideal S2x8192x64 .bf16 := V m c main_v25
abbrev xblk (c : Dev nD) (t : Fin cfg0.N) : Vec Ideal S2x1024x64 .bf16 := iblk m c 0 t
abbrev yblk (c : Dev nD) (t : Fin cfg0.N) : Vec Ideal S2x1024x64 .bf16 := iblk m c 1 t

/-- The printed index maps over the grid: point t stages row tile t / 8 of the first array, column tile t % 8 of the
    second, and writes row tile t / 8 of the result. -/
theorem idx_facts : ∀ t : Fin cfg0.N, win0_0.index t (0 : Fin 3) = 0 ∧ win0_0.index t (1 : Fin 3) = t.val / 8
    ∧ win0_0.index t (2 : Fin 3) = 0 ∧ win0_1.index t (0 : Fin 3) = 0 ∧ win0_1.index t (1 : Fin 3) = t.val % 8
    ∧ win0_1.index t (2 : Fin 3) = 0 ∧ win0_2.index t (0 : Fin 2) = 0 ∧ win0_2.index t (1 : Fin 2) = t.val / 8 :=
  (by decide +kernel : ∀ t : Fin grid0.N, _)

theorem t_lt (t : Fin cfg0.N) : t.val < 64 := lt_of_lt_of_eq t.isLt (show cfg0.N = 64 from N_0)

/-- The row tile and the column tile of a point. -/
def rowT (t : Fin cfg0.N) : Fin 8 := ⟨t.val / 8, by have := t_lt t; omega⟩
def colT (t : Fin cfg0.N) : Fin 8 := ⟨t.val % 8, by omega⟩

theorem xblk_apply (c : Dev nD) (t : Fin cfg0.N) (b : Fin 2) (r : Fin 1024) (d : Fin 64) :
    xblk m c t (ix3 b r d) = sarr m c (ix3 b (Cert.Md.rowIdx (rowT t) r) d) := by
  obtain ⟨e0, e1, e2, -, -, -, -, -⟩ := idx_facts t
  unfold xblk iblk
  rw [View.read_apply]
  show V m c main_v22 _ = V m c main_v22 _
  congr 1
  funext a
  apply Fin.ext
  match a with
  | ⟨0, _⟩ => show win0_0.index t (0 : Fin 3) * 2 + 1 * b.val = b.val; omega
  | ⟨1, _⟩ => show win0_0.index t (1 : Fin 3) * 1024 + 1 * r.val = 1024 * (t.val / 8) + r.val; omega
  | ⟨2, _⟩ => show win0_0.index t (2 : Fin 3) * 64 + 1 * d.val = d.val; omega

theorem yblk_apply (c : Dev nD) (t : Fin cfg0.N) (b : Fin 2) (l : Fin 1024) (d : Fin 64) :
    yblk m c t (ix3 b l d) = rarr m c (ix3 b (Cert.Md.colIdx (colT t) l) d) := by
  obtain ⟨-, -, -, e0, e1, e2, -, -⟩ := idx_facts t
  unfold yblk iblk
  rw [View.read_apply]
  show V m c main_v25 _ = V m c main_v25 _
  congr 1
  funext a
  apply Fin.ext
  match a with
  | ⟨0, _⟩ => show win0_1.index t (0 : Fin 3) * 2 + 1 * b.val = b.val; omega
  | ⟨1, _⟩ => show win0_1.index t (1 : Fin 3) * 1024 + 1 * l.val = 1024 * (t.val % 8) + l.val; omega
  | ⟨2, _⟩ => show win0_1.index t (2 : Fin 3) * 64 + 1 * d.val = d.val; omega

/-- A point's tile sum is the arrays' tile sum at the point's row and column tiles. -/
theorem tile_eq (c : Dev nD) (t : Fin cfg0.N) (b : Fin 2) (r : Fin 1024) :
    Cert.Md.tile (xblk m c t) (yblk m c t) b r
      = Cert.Md.ktile (sarr m c) (rarr m c) b (Cert.Md.rowIdx (rowT t) r) (colT t) := by
  unfold Cert.Md.tile Cert.Md.ktile
  refine Finset.sum_congr rfl fun l _ => congrArg Cert.Md.md (Finset.sum_congr rfl fun d _ => ?_)
  rw [xblk_apply, yblk_apply]

/-! ## What each point leaves, at an entry -/

/-- A resetting point leaves the zero word plus its tile's sum plus c. -/
theorem outs_reset (c : Dev nD) (t : Fin cfg0.N) (h0 : t.val % 8 = 0) (b : Fin 2) (r : Fin 1024) :
    outsAt0 m c t.val t.isLt (ix2 b r)
      = Cert.Md.Z + (Cert.Md.ktile (sarr m c) (rarr m c) b (Cert.Md.rowIdx (rowT t) r) (colT t) + Cert.Md.C) := by
  rw [outsAt0_A m c t h0]
  refine (out_A_apply c (grid0.coords t) (ms0_0 t) (hs0_0 t) (ms0_1 t) (hs0_1 t) (ms0_2 t) (hs0_2 t)
    ((hcond0_0 t).mpr h0) (xblk m c t) (yblk m c t) b r).trans ?_
  rw [tile_eq]

/-- Any other point adds its tile's sum plus c to what the point before left. -/
theorem outs_step (c : Dev nD) (t : Fin cfg0.N) (h0 : ¬t.val % 8 = 0) (b : Fin 2) (r : Fin 1024) :
    outsAt0 m c t.val t.isLt (ix2 b r)
      = outsAt0 m c (t.val - 1) (Nat.lt_of_le_of_lt (Nat.sub_le _ _) t.isLt) (ix2 b r)
        + (Cert.Md.ktile (sarr m c) (rarr m c) b (Cert.Md.rowIdx (rowT t) r) (colT t) + Cert.Md.C) := by
  rw [outsAt0_B m c t h0]
  refine (out_B_apply c (grid0.coords t) (ms0_0 t) (hs0_0 t) (ms0_1 t) (hs0_1 t) (ms0_2 t) (hs0_2 t)
    (fun h => h0 ((hcond0_0 t).mp h)) (xblk m c t) (yblk m c t)
    (outsAt0 m c (t.val - 1) (Nat.lt_of_le_of_lt (Nat.sub_le _ _) t.isLt)) b r).trans ?_
  rw [tile_eq]

/-! ## The running sum along a row tile's eight points -/

/-- Row r of row tile q and the tile sum of column tile J, the tile indices natural numbers (read modulo 8). -/
def rowN (q : ℕ) (r : Fin 1024) : Fin 8192 := Cert.Md.rowIdx ⟨q % 8, Nat.mod_lt _ (by decide)⟩ r
def ktN (S R : (⟨3, ![2, 8192, 64]⟩ : Shape).Idx → EReal) (b : Fin 2) (n : Fin 8192) (J : ℕ) : EReal :=
  Cert.Md.ktile S R b n ⟨J % 8, Nat.mod_lt _ (by decide)⟩

/-- A point's tile sum, its row and column tiles named by any naturals congruent to them. -/
theorem ktile_eq_ktN (S R : (⟨3, ![2, 8192, 64]⟩ : Shape).Idx → EReal) (b : Fin 2) (t : Fin cfg0.N) (r : Fin 1024)
    (q k : ℕ) (hq : t.val / 8 = q % 8) (hk : t.val % 8 = k % 8) :
    Cert.Md.ktile S R b (Cert.Md.rowIdx (rowT t) r) (colT t) = ktN S R b (rowN q r) k := by
  unfold ktN rowN
  have h1 : rowT t = ⟨q % 8, Nat.mod_lt _ (by decide)⟩ := Fin.ext hq
  have h2 : colT t = ⟨k % 8, Nat.mod_lt _ (by decide)⟩ := Fin.ext hk
  rw [h1, h2]

/-- The running sum at a resetting point: its one term. -/
theorem outs_eq_reset (c : Dev nD) (b : Fin 2) (r : Fin 1024) (t : Fin cfg0.N) (h0 : t.val % 8 = 0) :
    outsAt0 m c t.val t.isLt (ix2 b r) = Cert.Md.Z + ∑ J ∈ Finset.range (t.val % 8 + 1),
      (ktN (sarr m c) (rarr m c) b (rowN (t.val / 8) r) J + Cert.Md.C) := by
  have hN : t.val < 64 := t_lt t
  refine (outs_reset m c t h0 b r).trans ?_
  rw [h0, Nat.zero_add, Finset.sum_range_one,
    ktile_eq_ktN (sarr m c) (rarr m c) b t r (t.val / 8) 0 (by omega) (by omega)]

/-- The running sum at any other point: the point before's, and one more term. -/
theorem outs_eq_step (c : Dev nD) (b : Fin 2) (r : Fin 1024) (t : Fin cfg0.N) (h0 : ¬t.val % 8 = 0)
    (ih : outsAt0 m c (t.val - 1) (Nat.lt_of_le_of_lt (Nat.sub_le _ _) t.isLt) (ix2 b r)
      = Cert.Md.Z + ∑ J ∈ Finset.range ((t.val - 1) % 8 + 1),
          (ktN (sarr m c) (rarr m c) b (rowN ((t.val - 1) / 8) r) J + Cert.Md.C)) :
    outsAt0 m c t.val t.isLt (ix2 b r) = Cert.Md.Z + ∑ J ∈ Finset.range (t.val % 8 + 1),
      (ktN (sarr m c) (rarr m c) b (rowN (t.val / 8) r) J + Cert.Md.C) := by
  have hN : t.val < 64 := t_lt t
  refine (outs_step m c t h0 b r).trans ?_
  have e1 : (t.val - 1) / 8 = t.val / 8 := by omega
  have e2 : t.val % 8 = (t.val - 1) % 8 + 1 := by omega
  rw [ih, e1, ktile_eq_ktN (sarr m c) (rarr m c) b t r (t.val / 8) ((t.val - 1) % 8 + 1) (by omega) (by omega),
    e2, Finset.sum_range_succ _ ((t.val - 1) % 8 + 1), add_assoc]

/-- After point n the block holds, at (b, r), the zero word plus the tile sums (each with c) of the column tiles
    0 … n % 8 of row tile n / 8. -/
theorem outs_eq (c : Dev nD) (b : Fin 2) (r : Fin 1024) : ∀ (n : ℕ) (h : n < cfg0.N),
    outsAt0 m c n h (ix2 b r) = Cert.Md.Z + ∑ J ∈ Finset.range (n % 8 + 1),
      (ktN (sarr m c) (rarr m c) b (rowN (n / 8) r) J + Cert.Md.C)
  | 0, h => outs_eq_reset m c b r ⟨0, h⟩ (Nat.zero_mod 8)
  | n + 1, h => by
    by_cases h0 : (n + 1) % 8 = 0
    · exact outs_eq_reset m c b r ⟨n + 1, h⟩ h0
    · exact outs_eq_step m c b r ⟨n + 1, h⟩ h0 (outs_eq c b r n (Nat.lt_of_succ_lt h))

/-! ## The write-backs and the array -/

/-- The result array's contents: at (b, n) the accumulated row sum. -/
abbrev G (c : Dev nD) : Vec Ideal S2x8192 .f32 := fun y => Cert.Md.kacc (sarr m c) (rarr m c) (y 0) (y 1)

/-- Over all eight column tiles the running sum is the accumulated row sum. -/
theorem sum_all (S R : (⟨3, ![2, 8192, 64]⟩ : Shape).Idx → EReal) (b : Fin 2) (n : Fin 8192) :
    Cert.Md.Z + ∑ J ∈ Finset.range (7 + 1), (ktN S R b n J + Cert.Md.C) = Cert.Md.kacc S R b n := by
  unfold Cert.Md.kacc
  rw [Finset.sum_range (fun J => ktN S R b n J + Cert.Md.C)]
  refine congrArg (Cert.Md.Z + ·) (Finset.sum_congr rfl fun J _ => ?_)
  unfold ktN
  have hJ : (⟨J.val % 8, Nat.mod_lt _ (by decide)⟩ : Fin 8) = J := Fin.ext (Nat.mod_eq_of_lt J.isLt)
  rw [hJ]

/-- What a flushing point (the last column tile of its row tile) writes back is its block of the accumulated sums. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  have hN : t.val < 64 := t_lt t
  obtain ⟨-, -, -, -, -, -, e0, e1⟩ := idx_facts t
  show (cfg0.win 2).cut (grid0.coords t) ((dats m 0 c).after 2 t) = _
  rw [after0_2]
  funext y
  obtain ⟨b, r, rfl⟩ : ∃ (b : Fin 2) (r : Fin 1024), y = ix2 b r := ⟨y 0, y 1, eq_ix2 y⟩
  show outsAt0 m c t.val t.isLt (ix2 b r) = G m c (((cfg0.win 2).blk t).view.emb (ix2 b r))
  have hemb : ((cfg0.win 2).blk t).view.emb (ix2 b r) = ix2 b (rowN (t.val / 8) r) := by
    funext a
    apply Fin.ext
    match a with
    | ⟨0, _⟩ => show win0_2.index t (0 : Fin 2) * 2 + 1 * b.val = b.val; omega
    | ⟨1, _⟩ => show win0_2.index t (1 : Fin 2) * 1024 + 1 * r.val = 1024 * (t.val / 8 % 8) + r.val; omega
  rw [hemb, outs_eq m c b r t.val t.isLt, h7]
  exact sum_all (sarr m c) (rarr m c) b (rowN (t.val / 8) r)

/-- An index of the result array is in point t's block iff each coordinate is in the block's range on its axis. -/
theorem mem_blk (t : Fin cfg0.N) (i : S2x8192.Idx) :
    i ∈ ((cfg0.win 2).blk t).view.set ↔ ∀ a : Fin 2, win0_2.index t a * S2x1024.size a ≤ (i a).val ∧ (i a).val < win0_2.index t a * S2x1024.size a + S2x1024.size a := by
  show i ∈ ((View.whole main_v26).slice (win0_2.rect t)).set ↔ _
  rw [View.set_slice_whole, Rect.mem_set_unit]
  exact Iff.rfl

/-- Every entry (b, n) is written back by the last point of row tile n / 1024. -/
theorem cover (i : S2x8192.Idx) : ∃ t : Fin cfg0.N, (cfg0.win 2).flush t = true ∧ i ∈ ((cfg0.win 2).blk t).view.set := by
  have hi0 : (i 0).val < 2 := (i 0).isLt
  have hi1 : (i 1).val < 8192 := (i 1).isLt
  have hlt : 8 * ((i 1).val / 1024) + 7 < cfg0.N := by rw [show cfg0.N = 64 from N_0]; omega
  refine ⟨⟨8 * ((i 1).val / 1024) + 7, hlt⟩, (flush0_2 _).mpr (by show (8 * ((i 1).val / 1024) + 7) % 8 = 7; omega), ?_⟩
  obtain ⟨-, -, -, -, -, -, e0, e1⟩ := idx_facts ⟨8 * ((i 1).val / 1024) + 7, hlt⟩
  have e1' : win0_2.index ⟨8 * ((i 1).val / 1024) + 7, hlt⟩ (1 : Fin 2) = (8 * ((i 1).val / 1024) + 7) / 8 := e1
  rw [mem_blk]
  intro a
  match a with
  | ⟨0, _⟩ => show win0_2.index ⟨8 * ((i 1).val / 1024) + 7, hlt⟩ (0 : Fin 2) * 2 ≤ (i 0).val ∧ (i 0).val < win0_2.index ⟨8 * ((i 1).val / 1024) + 7, hlt⟩ (0 : Fin 2) * 2 + 2; omega
  | ⟨1, _⟩ => show win0_2.index ⟨8 * ((i 1).val / 1024) + 7, hlt⟩ (1 : Fin 2) * 1024 ≤ (i 1).val ∧ (i 1).val < win0_2.index ⟨8 * ((i 1).val / 1024) + 7, hlt⟩ (1 : Fin 2) * 1024 + 1024; omega

/-- The result array after the last grid point, at (b, n). -/
theorem final_out (c : Dev nD) (b : Fin 2) (n : Fin 8192) :
    (dats m 0 c).arrAt 2 cfg0.N (ix2 b n) = Cert.Md.kacc (V m c main_v22) (V m c main_v25) b n :=
  congrFun ((dats m 0 c).arrAt_eq_of_cover 2 (G m c) (flushed_eq m c) cover) (ix2 b n)

end Cert.KernelIdeal.KV

end
-- ==== Proof.KTerm.lean ====
/-
  The host side of the kernel's program as pure terms of the two inputs of a pair: the variance of the stacked inputs
  (jnp.var spelled out: mean, centring, squares, the divisor with its degrees-of-freedom correction 0 and the guard on
  its sign), and the difference divided by it.  No run, no memory: only the operations' composed terms, named.
-/
import proofs.«427105_j86861418594470_3_alg».proof.KernelIdeal

noncomputable section

namespace Cert.KernelIdeal.KT

open Idealize.ShloMosaic Cert.KernelIdeal

variable {F : FTy → Type} [FloatOps F] [Facts]
open Facts₀ Facts

/-- Host arrays of f32 and of i1 at a shape, as the host operations type them. -/
abbrev HV (F : FTy → Type) (S : Shape) : Type := (⟨S, .f32⟩ : BufTy).Contents (Elt F)
abbrev HB (F : FTy → Type) (S : Shape) : Type := (⟨S, .i1⟩ : BufTy).Contents (Elt F)

/-- The column means of a 16384 x 64 array: the column sums from the zero word, divided by the word of 16384.0. -/
def meanOf (x : HV F S16384x64) : HV F S1x64 :=
  Host.divf (broadcastInDim S1x64 ![1] bcast_S64_S1x64_1 (Host.reduceAdd x (constant S_ .f32 0x00000000#32) reducesTo_S16384x64_S64_d0 h_S_))
    (broadcastInDim S1x64 ![] bcast_S_S1x64 (constant S_ .f32 0x46800000#32))

/-- The divisor of the variance: 16384.0 minus the correction 0 converted to a float. -/
def countOf : HV F S_ :=
  subf (constant S_ .f32 0x46800000#32) (sitofp .f32 (constantI S_ 32 0#32))

/-- The array with its column means subtracted. -/
def centredOf (x : HV F S16384x64) : HV F S16384x64 :=
  subf x (broadcastInDim S16384x64 ![0, 1] bcast_S1x64_S16384x64_0_1 (meanOf x))

/-- jnp.var along the rows, as the host computes it: the column sums of the squared centred array over the divisor
    where the divisor is positive, the NaN word elsewhere. -/
def varOf (x : HV F S16384x64) : HV F S64 :=
  select (broadcastInDim S64 ![] bcast_S_S64 (cmpf .ogt (countOf (F := F)) (constant S_ .f32 0x00000000#32)))
    (Host.divf (Host.reduceAdd (mulf (centredOf x) (centredOf x)) (constant S_ .f32 0x00000000#32) reducesTo_S16384x64_S64_d0 h_S_)
      (broadcastInDim S64 ![] bcast_S_S64 (countOf (F := F))))
    (broadcastInDim S64 ![] bcast_S_S64 (id (constant S_ .f32 0x7FC00000#32)))

/-- The array whose variance is taken: the two inputs stacked along the rows, plus the word of 1e-4 everywhere. -/
def inputOf (a b : HV F S8192x64) : HV F S16384x64 :=
  addf (concatenate S16384x64 0 [⟨S8192x64, a⟩, ⟨S8192x64, b⟩] concatenates_S8192x64_S8192x64_S16384x64_d0)
    (broadcastInDim S16384x64 ![] bcast_S_S16384x64 (constant S_ .f32 0x38D1B717#32))

/-- The difference of the pair. -/
def diffOf (a b : HV F S8192x64) : HV F S8192x64 := subf a b

/-- The difference of the pair divided, feature by feature, by the variance of the stacked inputs. -/
def scaledOf (a b : HV F S8192x64) : HV F S8192x64 :=
  Host.divf (diffOf a b) (broadcastInDim S8192x64 ![0, 1] bcast_S1x64_S8192x64_0_1 (broadcastInDim S1x64 ![1] bcast_S64_S1x64_1 (varOf (inputOf a b))))

end Cert.KernelIdeal.KT

end
-- ==== Proof.KHost.lean ====
/-
  The host operations around the kernel's region, read at an index over the extended reals: the two stacked operands the
  region finds (slab 0 the pair (anchor, positive), slab 1 the pair (anchor, negative); the scaled differences and the
  differences, the narrowing to bf16 being the identity), and the two results the operations after the region cut out of
  the region's 2 x 8192 array (row 0 and row 1).
-/
import proofs.«427105_j86861418594470_3_alg».proof.Proof.Gen.KernelIdeal.Frame
import proofs.«427105_j86861418594470_3_alg».proof.Proof.KTerm
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.KH

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- Host arrays of bf16 at a shape, over the extended reals. -/
abbrev BV (S : Shape) : Type := (⟨S, .bf16⟩ : BufTy).Contents (Elt Ideal)

/-- An 8192 x 64 array narrowed to bf16 and given a leading unit axis: one slab of a stacked operand. -/
abbrev slab (x : KT.HV Ideal S8192x64) : BV S1x8192x64 :=
  broadcastInDim S1x8192x64 ![1, 2] bcast_S8192x64_S1x8192x64_1_2
    (truncf (F := Ideal) (φ := .f32) (s := S8192x64) .bf16 x bitsLt_bf16_f32)

/-- Two slabs stacked along the leading axis. -/
abbrev stack (a b : BV S1x8192x64) : BV S2x8192x64 :=
  concatenate S2x8192x64 0 [⟨S1x8192x64, a⟩, ⟨S1x8192x64, b⟩] concatenates_S1x8192x64_S1x8192x64_S2x8192x64_d0

/-! ## The stacked operands read at an index -/

/-- A slab at (0, n, d) is the array at (n, d): the broadcast only adds the unit axis, and the narrowing is the identity
    over the extended reals. -/
theorem slab_apply (x : KT.HV Ideal S8192x64) (n : Fin 8192) (d : Fin 64) :
    slab x (ix3 (0 : Fin 1) n d) = x (ix2 n d) := by
  refine (broadcastInDim_apply ![1, 2] bcast_S8192x64_S1x8192x64_1_2 _ (ix3 (0 : Fin 1) n d) (ix2 n d) ?_).trans rfl
  intro a
  match a with
  | ⟨0, _⟩ => rfl
  | ⟨1, _⟩ => rfl

/-- Slab 0 of a stack is its first piece. -/
theorem stack_apply0 (a b : BV S1x8192x64) (n : Fin 8192) (d : Fin 64) :
    stack a b (ix3 (0 : Fin 2) n d) = a (ix3 (0 : Fin 1) n d) := by
  refine concatenate_pair_apply_left (0 : Fin 3) a b concatenates_S1x8192x64_S1x8192x64_S2x8192x64_d0
    (ix3 (0 : Fin 2) n d) rfl (ix3 (0 : Fin 1) n d) ?_
  intro e
  match e with
  | ⟨0, _⟩ => rfl
  | ⟨1, _⟩ => rfl
  | ⟨2, _⟩ => rfl

/-- Slab 1 of a stack is its second piece: the first piece has extent 1 along the stacking axis. -/
theorem stack_apply1 (a b : BV S1x8192x64) (n : Fin 8192) (d : Fin 64) :
    stack a b (ix3 (1 : Fin 2) n d) = b (ix3 (0 : Fin 1) n d) := by
  refine concatenate_pair_apply_right (0 : Fin 3) a b concatenates_S1x8192x64_S1x8192x64_S2x8192x64_d0
    (ix3 (1 : Fin 2) n d) rfl rfl (ix3 (0 : Fin 1) n d) ?_ rfl
  intro e he
  match e with
  | ⟨0, _⟩ => exact absurd rfl he
  | ⟨1, _⟩ => rfl
  | ⟨2, _⟩ => rfl

/-! ## The arrays the region finds, as the operations' composed terms

Each stacked operand is the last of the seventy-two operations before the region; its two pieces are results of earlier
ones.  The operations' results are substituted outermost first; what is left on each side is the same composition of the
same operations on the three launched inputs, the column sums never evaluated. -/

set_option maxHeartbeats 2000000 in
/-- The second operand: the two differences, narrowed and stacked. -/
theorem v25_eq (c : Dev nD) :
    (V m c main_v25 : BV S2x8192x64) = stack
      (slab (KT.diffOf (F := Ideal) (m ((c.tc : Thread nD τ).loc main_arg0)) (m ((c.tc : Thread nD τ).loc main_arg1))))
      (slab (KT.diffOf (F := Ideal) (m ((c.tc : Thread nD τ).loc main_arg0)) (m ((c.tc : Thread nD τ).loc main_arg2)))) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  refine congrArg₂ stack ?_ ?_
  · after_results_simp
    rfl
  · after_results_simp
    rfl

attribute [local irreducible] Host.reduceAdd in
set_option maxHeartbeats 2000000 in
/-- The first operand: the two scaled differences, narrowed and stacked. -/
theorem v22_eq (c : Dev nD) :
    (V m c main_v22 : BV S2x8192x64) = stack
      (slab (KT.scaledOf (F := Ideal) (m ((c.tc : Thread nD τ).loc main_arg0)) (m ((c.tc : Thread nD τ).loc main_arg1))))
      (slab (KT.scaledOf (F := Ideal) (m ((c.tc : Thread nD τ).loc main_arg0)) (m ((c.tc : Thread nD τ).loc main_arg2)))) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  refine congrArg₂ stack ?_ ?_
  · after_results_simp
    simp only [StableHlo.TRef.ofBuf, StableHlo.TRef.toBuf, cast_eq]
    rfl
  · after_results_simp
    simp only [StableHlo.TRef.ofBuf, StableHlo.TRef.toBuf, cast_eq]
    rfl

/-- Slab 0 of the first operand is the scaled difference of (anchor, positive). -/
theorem V_scaled0 (c : Dev nD) (n : Fin 8192) (d : Fin 64) :
    V m c main_v22 (ix3 (0 : Fin 2) n d)
      = KT.scaledOf (F := Ideal) (m ((c.tc : Thread nD τ).loc main_arg0)) (m ((c.tc : Thread nD τ).loc main_arg1)) (ix2 n d) :=
  (congrFun (v22_eq m c) (ix3 (0 : Fin 2) n d)).trans ((stack_apply0 _ _ n d).trans (slab_apply _ n d))

/-- Slab 1 of the first operand is the scaled difference of (anchor, negative). -/
theorem V_scaled1 (c : Dev nD) (n : Fin 8192) (d : Fin 64) :
    V m c main_v22 (ix3 (1 : Fin 2) n d)
      = KT.scaledOf (F := Ideal) (m ((c.tc : Thread nD τ).loc main_arg0)) (m ((c.tc : Thread nD τ).loc main_arg2)) (ix2 n d) :=
  (congrFun (v22_eq m c) (ix3 (1 : Fin 2) n d)).trans ((stack_apply1 _ _ n d).trans (slab_apply _ n d))

/-- Slab 0 of the second operand is the difference of (anchor, positive). -/
theorem V_rhs0 (c : Dev nD) (n : Fin 8192) (d : Fin 64) :
    V m c main_v25 (ix3 (0 : Fin 2) n d)
      = KT.diffOf (F := Ideal) (m ((c.tc : Thread nD τ).loc main_arg0)) (m ((c.tc : Thread nD τ).loc main_arg1)) (ix2 n d) :=
  (congrFun (v25_eq m c) (ix3 (0 : Fin 2) n d)).trans ((stack_apply0 _ _ n d).trans (slab_apply _ n d))

/-- Slab 1 of the second operand is the difference of (anchor, negative). -/
theorem V_rhs1 (c : Dev nD) (n : Fin 8192) (d : Fin 64) :
    V m c main_v25 (ix3 (1 : Fin 2) n d)
      = KT.diffOf (F := Ideal) (m ((c.tc : Thread nD τ).loc main_arg0)) (m ((c.tc : Thread nD τ).loc main_arg2)) (ix2 n d) :=
  (congrFun (v25_eq m c) (ix3 (1 : Fin 2) n d)).trans ((stack_apply1 _ _ n d).trans (slab_apply _ n d))

/-! ## The results cut out of the region's array

After the region its 2 x 8192 array stands at window 2's final contents; each result is one row of it, sliced out as a
1 x 8192 array and reshaped to 8192 entries. -/

/-- The first result is row 0 of the region's array. -/
theorem tail_v28 (c : Dev nD) (n : Fin 8192) :
    Pipeline.afterTail₀ cfgs (dats m) 0 (V0 m) [hostOps1] c main_v28 (ix1 n) = (dats m 0 c).arrAt 2 cfg0.N (ix2 (0 : Fin 2) n) := by
  unfold Pipeline.afterTail₀
  show StableHlo.after hostOps1 _ (Proc.devRef .tc main_v28) (ix1 n) = _
  after_results
  show shapeCast S8192 (extractStridedSlice S1x8192 ![0, 0]
      (Pipeline.withArrays (cfgs 0).spec c (V0 m c) (fun w => (dats m 0 c).arrAt w (cfgs 0).N) (Proc.devRef .tc main_v26))
      slices_S2x8192_S1x8192_0_0) shapeCasts_S1x8192_S8192 (ix1 n) = _
  refine (shapeCast_1a_a_apply _ _ n).trans ((slice2_axis0_apply 0 _ _ (0 : Fin 1) n (0 : Fin 2) rfl).trans ?_)
  exact congrFun (Pipeline.withArrays_arr spec0 launch0.win.arr_inj c _ _ 2) (ix2 (0 : Fin 2) n)

/-- The second result is row 1 of the region's array. -/
theorem tail_v30 (c : Dev nD) (n : Fin 8192) :
    Pipeline.afterTail₀ cfgs (dats m) 0 (V0 m) [hostOps1] c main_v30 (ix1 n) = (dats m 0 c).arrAt 2 cfg0.N (ix2 (1 : Fin 2) n) := by
  unfold Pipeline.afterTail₀
  show StableHlo.after hostOps1 _ (Proc.devRef .tc main_v30) (ix1 n) = _
  after_results
  show shapeCast S8192 (extractStridedSlice S1x8192 ![1, 0]
      (Pipeline.withArrays (cfgs 0).spec c (V0 m c) (fun w => (dats m 0 c).arrAt w (cfgs 0).N) (Proc.devRef .tc main_v26))
      slices_S2x8192_S1x8192_1_0) shapeCasts_S1x8192_S8192 (ix1 n) = _
  refine (shapeCast_1a_a_apply _ _ n).trans ((slice2_axis0_apply 1 _ _ (0 : Fin 1) n (1 : Fin 2) rfl).trans ?_)
  exact congrFun (Pipeline.withArrays_arr spec0 launch0.win.arr_inj c _ _ 2) (ix2 (1 : Fin 2) n)

end Cert.KernelIdeal.KH

end
-- ==== Proof.KRun.lean ====
/-
  The kernel program's run with its two results named, over the extended reals: every weakly fair execution terminates
  with the first result at row n holding the accumulated sum for the pair (anchor, positive) — slab 0 of the two stacked
  operands the region finds — and the second the one for (anchor, negative), slab 1; the arguments end as they began.
  The region's 2 x 8192 array after the last grid point is read entry by entry, and the two operations after the region
  cut its rows out.
-/
import proofs.«427105_j86861418594470_3_alg».proof.Proof.KAccum
import proofs.«427105_j86861418594470_3_alg».proof.Proof.KHost

noncomputable section

namespace Cert.KernelIdeal.KR

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The result for slab b (b = 0 the pair (anchor, positive), b = 1 the pair (anchor, negative)), as contents of a
    result buffer of 8192 rows. -/
def res (c : Dev nD) (b : Fin 2) : S8192.Idx → EReal :=
  fun i => Cert.Md.kacc (V m c main_v22) (V m c main_v25) b (i 0)

/-- What the operations after the region leave in the first result buffer. -/
theorem tail0_eq (c : Dev nD) :
    Pipeline.afterTail₀ cfgs (dats m) 0 (V0 m) [hostOps1] c main_v28 = res m c 0 := by
  refine funext fun (i : S8192.Idx) => ?_
  obtain ⟨n, rfl⟩ : ∃ n : Fin 8192, i = ix1 n := ⟨i 0, eq_ix1 i⟩
  exact (KH.tail_v28 m c n).trans (KV.final_out m c 0 n)

/-- What they leave in the second. -/
theorem tail1_eq (c : Dev nD) :
    Pipeline.afterTail₀ cfgs (dats m) 0 (V0 m) [hostOps1] c main_v30 = res m c 1 := by
  refine funext fun (i : S8192.Idx) => ?_
  obtain ⟨n, rfl⟩ : ∃ n : Fin 8192, i = ix1 n := ⟨i 0, eq_ix1 i⟩
  exact (KH.tail_v30 m c n).trans (KV.final_out m c 1 n)

/-- The run, read: both results named, the arguments unchanged. -/
theorem run : θ_run defs (onTc (τ := τ) (main (F := Ideal))) ⟨m, fun _ => 0, ρ⟩ fun r => ∀ c : Dev nD,
      r.2.mem ((c.tc : Thread nD τ).loc main_v28) = res m c 0
      ∧ r.2.mem ((c.tc : Thread nD τ).loc main_v30) = res m c 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v28 (Pipeline.mem_restRefs_of main_v28 (by decide) (by decide))).trans (tail0_eq m c),
     ((h c).2 main_v30 (Pipeline.mem_restRefs_of main_v30 (by decide) (by decide))).trans (tail1_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KR

end
-- ==== Proof.RefTerm.lean ====
/-
  The reference's program as pure terms of the two inputs of a pair: the variance of the stacked inputs (jnp.var spelled
  out: mean, centring, squares, the divisor with its degrees-of-freedom correction 0 and the guard on its sign), the
  difference divided by it, the 8192 x 8192 matrix of contractions, its masked roots plus the word of 1e-6, and their
  row sums from the zero word.  No run, no memory: only the operations' composed terms, named.
-/
import proofs.«427105_j86861418594470_3_alg».proof.ReferenceIdeal

noncomputable section

namespace Cert.ReferenceIdeal.RT

open Idealize.ShloMosaic Cert.ReferenceIdeal

variable {F : FTy → Type} [FloatOps F] [Facts]
open Facts₀ Facts

/-- Host arrays of f32 and of i1 at a shape, as the host operations type them. -/
abbrev HV (F : FTy → Type) (S : Shape) : Type := (⟨S, .f32⟩ : BufTy).Contents (Elt F)
abbrev HB (F : FTy → Type) (S : Shape) : Type := (⟨S, .i1⟩ : BufTy).Contents (Elt F)

/-- The column means of a 16384 x 64 array: the column sums from the zero word, divided by the word of 16384.0. -/
def meanOf (x : HV F S16384x64) : HV F S1x64 :=
  Host.divf (broadcastInDim S1x64 ![1] bcast_S64_S1x64_1 (Host.reduceAdd x (constant S_ .f32 0x00000000#32) reducesTo_S16384x64_S64_d0 h_S_))
    (broadcastInDim S1x64 ![] bcast_S_S1x64 (constant S_ .f32 0x46800000#32))

/-- The divisor of the variance: 16384.0 minus the correction 0 converted to a float. -/
def countOf : HV F S_ :=
  subf (constant S_ .f32 0x46800000#32) (sitofp .f32 (constantI S_ 32 0#32))

/-- The array with its column means subtracted. -/
def centredOf (x : HV F S16384x64) : HV F S16384x64 :=
  subf x (broadcastInDim S16384x64 ![0, 1] bcast_S1x64_S16384x64_0_1 (meanOf x))

/-- jnp.var along the rows, as the host computes it: the column sums of the squared centred array over the divisor
    where the divisor is positive, the NaN word elsewhere. -/
def varOf (x : HV F S16384x64) : HV F S64 :=
  select (broadcastInDim S64 ![] bcast_S_S64 (cmpf .ogt (countOf (F := F)) (constant S_ .f32 0x00000000#32)))
    (Host.divf (Host.reduceAdd (mulf (centredOf x) (centredOf x)) (constant S_ .f32 0x00000000#32) reducesTo_S16384x64_S64_d0 h_S_)
      (broadcastInDim S64 ![] bcast_S_S64 (countOf (F := F))))
    (broadcastInDim S64 ![] bcast_S_S64 (id (constant S_ .f32 0x7FC00000#32)))

/-- The array whose variance is taken: the two inputs stacked along the rows, plus the word of 1e-4 everywhere. -/
def inputOf (a b : HV F S8192x64) : HV F S16384x64 :=
  addf (concatenate S16384x64 0 [⟨S8192x64, a⟩, ⟨S8192x64, b⟩] concatenates_S8192x64_S8192x64_S16384x64_d0)
    (broadcastInDim S16384x64 ![] bcast_S_S16384x64 (constant S_ .f32 0x38D1B717#32))

/-- The difference of the pair. -/
def diffOf (a b : HV F S8192x64) : HV F S8192x64 := subf a b

/-- The difference of the pair divided, feature by feature, by the variance of the stacked inputs. -/
def scaledOf (a b : HV F S8192x64) : HV F S8192x64 :=
  Host.divf (diffOf a b) (broadcastInDim S8192x64 ![0, 1] bcast_S1x64_S8192x64_0_1 (broadcastInDim S1x64 ![1] bcast_S64_S1x64_1 (varOf (inputOf a b))))

/-- The matrix q: row n of the scaled difference contracted with row k of the difference, over the 64 features. -/
def qOf (a b : HV F S8192x64) : HV F S8192x8192 :=
  Host.dotGeneral dot_S8192x64_S8192x64_S8192x8192_1_1_0_0_n_n none (scaledOf a b) (diffOf a b)

/-- Where q is below the zero word. -/
def negOf (a b : HV F S8192x64) : HB F S8192x8192 :=
  cmpf .olt (qOf a b) (broadcastInDim S8192x8192 ![] bcast_S_S8192x8192 (constant S_ .f32 0x00000000#32))

/-- The masked roots: the zero word where q is negative, else the square root of q (of the word of 1.0 at the masked places). -/
def mdOf (a b : HV F S8192x64) : HV F S8192x8192 :=
  select (negOf a b) (broadcastInDim S8192x8192 ![] bcast_S_S8192x8192 (id (constant S_ .f32 0x00000000#32)))
    (Host.sqrt (select (negOf a b) (broadcastInDim S8192x8192 ![] bcast_S_S8192x8192 (id (constant S_ .f32 0x3F800000#32))) (qOf a b)))

/-- The reference's result for the pair: the row sums, from the zero word, of the masked roots plus the word of 1e-6. -/
def resOf (a b : HV F S8192x64) : HV F S8192 :=
  Host.reduceAdd (addf (mdOf a b) (broadcastInDim S8192x8192 ![] bcast_S_S8192x8192 (constant S_ .f32 0x358637BD#32)))
    (constant S_ .f32 0x00000000#32) reducesTo_S8192x8192_S8192_d1 h_S_

end Cert.ReferenceIdeal.RT

end
-- ==== Proof.RefRun.lean ====
/-
  The reference's run: @main is a straight line of host operations (the outlined functions opened at their calls), so
  every weakly fair execution terminates with each buffer at the operations' composed term of the arguments; the two
  results are the named terms of RefTerm (the row sums for the pairs (anchor, positive) and (anchor, negative)) and the
  arguments end as they began.
-/
import proofs.«427105_j86861418594470_3_alg».proof.Proof.Gen.ReferenceIdeal
import proofs.«427105_j86861418594470_3_alg».proof.Proof.RefTerm
import Idealize.ShloMosaic.Lib.StableHlo.Run
import Idealize.ShloMosaic.Lib.Tactic

noncomputable section

namespace Cert.ReferenceIdeal.RV

open Idealize.ShloMosaic Idealize.ShloMosaic.TcCoe Idealize.SL.Sem
open Cert.ReferenceIdeal Cert.ReferenceIdeal.Gen Idealize.ShloMosaic.StableHlo

variable {F : FTy → Type} [FloatOps F]

/-- @main's ninety-eight operations in order, the calls opened. For each pair: the stacked inputs plus the word of 1e-4
    (four operations) and the correction 0; the variance's twenty-two (@_var's nineteen: the column sums, the mean, the
    centring, the squares, the divisor and its sign test, the NaN word; then @_where's three: the NaN word converted to
    its own type, broadcast, the select); the difference, the variance broadcast twice, the quotient, the contraction,
    the zero matrix, the comparison, the word of 1.0; @_where_0's three (the word converted, broadcast, the select); the
    root, the zero word; @_where_0's three again; the word of 1e-6, its broadcast, the sum.  Last the two row sums,
    each from its own zero word. -/
abbrev ops : List (HloOp τ sig (Elt F)) :=
  [ binary main_arg0 main_arg1 main_v0 ((fun a b => concatenate S16384x64 0 [⟨S8192x64, a⟩, ⟨S8192x64, b⟩] concatenates_S8192x64_S8192x64_S16384x64_d0) : (⟨S8192x64, .f32⟩ : BufTy).Contents (Elt F) → (⟨S8192x64, .f32⟩ : BufTy).Contents (Elt F) → (⟨S16384x64, .f32⟩ : BufTy).Contents (Elt F)),
    nullary main_cst (constant S_ .f32 0x38D1B717#32),
    unary main_cst main_v1 (broadcastInDim S16384x64 ![] bcast_S_S16384x64),
    binary main_v0 main_v1 main_v2 addf,
    nullary main_c (constantI S_ 32 0#32),
    -- %3 = @_var(%2, %c)
    TRef.nullary main_call0.cst (constant S_ .f32 0x00000000#32),
    TRef.binary (.of main_v2) main_call0.cst main_call0.v0 (fun x v => Host.reduceAdd x v reducesTo_S16384x64_S64_d0 h_S_),
    TRef.unary main_call0.v0 main_call0.v1 (broadcastInDim S1x64 ![1] bcast_S64_S1x64_1),
    TRef.nullary main_call0.cst_0 (constant S_ .f32 0x46800000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S16384x64 ![0, 1] bcast_S1x64_S16384x64_0_1),
    TRef.binary (.of main_v2) main_call0.v4 main_call0.v5 subf,
    TRef.binary main_call0.v5 main_call0.v5 main_call0.v6 mulf,
    TRef.unary (.of main_c) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    -- the pair's difference, scaled, contracted, masked
    binary main_arg0 main_arg1 main_v4 subf,
    unary main_v3 main_v5 (broadcastInDim S1x64 ![1] bcast_S64_S1x64_1),
    unary main_v5 main_v6 (broadcastInDim S8192x64 ![0, 1] bcast_S1x64_S8192x64_0_1),
    binary main_v4 main_v6 main_v7 Host.divf,
    binary main_v7 main_v4 main_v8 ((fun l r => Host.dotGeneral dot_S8192x64_S8192x64_S8192x8192_1_1_0_0_n_n none l r) : (⟨S8192x64, .f32⟩ : BufTy).Contents (Elt F) → (⟨S8192x64, .f32⟩ : BufTy).Contents (Elt F) → (⟨S8192x8192, .f32⟩ : BufTy).Contents (Elt F)),
    nullary main_cst_0 (constant S_ .f32 0x00000000#32),
    unary main_cst_0 main_v9 (broadcastInDim S8192x8192 ![] bcast_S_S8192x8192),
    binary main_v8 main_v9 main_v10 (cmpf .olt),
    nullary main_cst_1 (constant S_ .f32 0x3F800000#32),
    -- %11 = @_where_0(%10, %cst_1, %8)
    TRef.unary (.of main_cst_1) main_call1.v0 id,
    TRef.unary main_call1.v0 main_call1.v1 (broadcastInDim S8192x8192 ![] bcast_S_S8192x8192),
    TRef.ternary (.of main_v10) main_call1.v1 (.of main_v8) main_call1.v2 select,
    unary main_v11 main_v12 Host.sqrt,
    nullary main_cst_2 (constant S_ .f32 0x00000000#32),
    -- %13 = @_where_0(%10, %cst_2, %12)
    TRef.unary (.of main_cst_2) main_call2.v0 id,
    TRef.unary main_call2.v0 main_call2.v1 (broadcastInDim S8192x8192 ![] bcast_S_S8192x8192),
    TRef.ternary (.of main_v10) main_call2.v1 (.of main_v12) main_call2.v2 select,
    nullary main_cst_3 (constant S_ .f32 0x358637BD#32),
    unary main_cst_3 main_v14 (broadcastInDim S8192x8192 ![] bcast_S_S8192x8192),
    binary main_v13 main_v14 main_v15 addf,
    -- the second pair
    binary main_arg0 main_arg2 main_v16 ((fun a b => concatenate S16384x64 0 [⟨S8192x64, a⟩, ⟨S8192x64, b⟩] concatenates_S8192x64_S8192x64_S16384x64_d0) : (⟨S8192x64, .f32⟩ : BufTy).Contents (Elt F) → (⟨S8192x64, .f32⟩ : BufTy).Contents (Elt F) → (⟨S16384x64, .f32⟩ : BufTy).Contents (Elt F)),
    nullary main_cst_4 (constant S_ .f32 0x38D1B717#32),
    unary main_cst_4 main_v17 (broadcastInDim S16384x64 ![] bcast_S_S16384x64),
    binary main_v16 main_v17 main_v18 addf,
    nullary main_c_5 (constantI S_ 32 0#32),
    -- %19 = @_var(%18, %c_5)
    TRef.nullary main_call3.cst (constant S_ .f32 0x00000000#32),
    TRef.binary (.of main_v18) main_call3.cst main_call3.v0 (fun x v => Host.reduceAdd x v reducesTo_S16384x64_S64_d0 h_S_),
    TRef.unary main_call3.v0 main_call3.v1 (broadcastInDim S1x64 ![1] bcast_S64_S1x64_1),
    TRef.nullary main_call3.cst_0 (constant S_ .f32 0x46800000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S16384x64 ![0, 1] bcast_S1x64_S16384x64_0_1),
    TRef.binary (.of main_v18) main_call3.v4 main_call3.v5 subf,
    TRef.binary main_call3.v5 main_call3.v5 main_call3.v6 mulf,
    TRef.unary (.of main_c_5) main_call3.v7 (sitofp .f32),
    TRef.nullary main_call3.cst_1 (constant S_ .f32 0x46800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S16384x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b),
    binary main_arg0 main_arg2 main_v20 subf,
    unary main_v19 main_v21 (broadcastInDim S1x64 ![1] bcast_S64_S1x64_1),
    unary main_v21 main_v22 (broadcastInDim S8192x64 ![0, 1] bcast_S1x64_S8192x64_0_1),
    binary main_v20 main_v22 main_v23 Host.divf,
    binary main_v23 main_v20 main_v24 ((fun l r => Host.dotGeneral dot_S8192x64_S8192x64_S8192x8192_1_1_0_0_n_n none l r) : (⟨S8192x64, .f32⟩ : BufTy).Contents (Elt F) → (⟨S8192x64, .f32⟩ : BufTy).Contents (Elt F) → (⟨S8192x8192, .f32⟩ : BufTy).Contents (Elt F)),
    nullary main_cst_6 (constant S_ .f32 0x00000000#32),
    unary main_cst_6 main_v25 (broadcastInDim S8192x8192 ![] bcast_S_S8192x8192),
    binary main_v24 main_v25 main_v26 (cmpf .olt),
    nullary main_cst_7 (constant S_ .f32 0x3F800000#32),
    -- %27 = @_where_0(%26, %cst_7, %24)
    TRef.unary (.of main_cst_7) main_call4.v0 id,
    TRef.unary main_call4.v0 main_call4.v1 (broadcastInDim S8192x8192 ![] bcast_S_S8192x8192),
    TRef.ternary (.of main_v26) main_call4.v1 (.of main_v24) main_call4.v2 select,
    unary main_v27 main_v28 Host.sqrt,
    nullary main_cst_8 (constant S_ .f32 0x00000000#32),
    -- %29 = @_where_0(%26, %cst_8, %28)
    TRef.unary (.of main_cst_8) main_call5.v0 id,
    TRef.unary main_call5.v0 main_call5.v1 (broadcastInDim S8192x8192 ![] bcast_S_S8192x8192),
    TRef.ternary (.of main_v26) main_call5.v1 (.of main_v28) main_call5.v2 select,
    nullary main_cst_9 (constant S_ .f32 0x358637BD#32),
    unary main_cst_9 main_v30 (broadcastInDim S8192x8192 ![] bcast_S_S8192x8192),
    binary main_v29 main_v30 main_v31 addf,
    -- the two row sums
    nullary main_cst_10 (constant S_ .f32 0x00000000#32),
    binary main_v15 main_cst_10 main_v32 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_11 (constant S_ .f32 0x00000000#32),
    binary main_v31 main_cst_11 main_v33 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

set_option maxRecDepth 4096 in
/-- @main equals the sequence of the listed operations: a call of an outlined function is its body applied to the
    call's buffers, and sequencing an operation before a continuation computes to the operation continued by it. -/
theorem main_eq (c : Dev nD) : main (F := F) c = seq ops := by
  unfold main fn_var.body fn_where.body fn_where_0.body
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨-- the first pair: the stacked inputs
   binary_bufs_sub .., nullary_bufs_sub .., unary_bufs_sub .., binary_bufs_sub .., nullary_bufs_sub ..,
   -- the variance
   nullary_bufs_sub .., binary_bufs_sub .., unary_bufs_sub .., nullary_bufs_sub .., unary_bufs_sub .., binary_bufs_sub ..,
   unary_bufs_sub .., binary_bufs_sub .., binary_bufs_sub .., unary_bufs_sub .., nullary_bufs_sub .., binary_bufs_sub ..,
   nullary_bufs_sub .., binary_bufs_sub .., unary_bufs_sub .., binary_bufs_sub .., nullary_bufs_sub .., binary_bufs_sub ..,
   nullary_bufs_sub .., unary_bufs_sub .., unary_bufs_sub .., ternary_bufs_sub ..,
   -- the difference, scaled, contracted, compared
   binary_bufs_sub .., unary_bufs_sub .., unary_bufs_sub .., binary_bufs_sub .., binary_bufs_sub .., nullary_bufs_sub ..,
   unary_bufs_sub .., binary_bufs_sub .., nullary_bufs_sub ..,
   -- the two selects around the root, and the word of 1e-6
   unary_bufs_sub .., unary_bufs_sub .., ternary_bufs_sub .., unary_bufs_sub .., nullary_bufs_sub ..,
   unary_bufs_sub .., unary_bufs_sub .., ternary_bufs_sub .., nullary_bufs_sub .., unary_bufs_sub .., binary_bufs_sub ..,
   -- the second pair: the same again
   binary_bufs_sub .., nullary_bufs_sub .., unary_bufs_sub .., binary_bufs_sub .., nullary_bufs_sub ..,
   nullary_bufs_sub .., binary_bufs_sub .., unary_bufs_sub .., nullary_bufs_sub .., unary_bufs_sub .., binary_bufs_sub ..,
   unary_bufs_sub .., binary_bufs_sub .., binary_bufs_sub .., unary_bufs_sub .., nullary_bufs_sub .., binary_bufs_sub ..,
   nullary_bufs_sub .., binary_bufs_sub .., unary_bufs_sub .., binary_bufs_sub .., nullary_bufs_sub .., binary_bufs_sub ..,
   nullary_bufs_sub .., unary_bufs_sub .., unary_bufs_sub .., ternary_bufs_sub ..,
   binary_bufs_sub .., unary_bufs_sub .., unary_bufs_sub .., binary_bufs_sub .., binary_bufs_sub .., nullary_bufs_sub ..,
   unary_bufs_sub .., binary_bufs_sub .., nullary_bufs_sub ..,
   unary_bufs_sub .., unary_bufs_sub .., ternary_bufs_sub .., unary_bufs_sub .., nullary_bufs_sub ..,
   unary_bufs_sub .., unary_bufs_sub .., ternary_bufs_sub .., nullary_bufs_sub .., unary_bufs_sub .., binary_bufs_sub ..,
   -- the two row sums
   nullary_bufs_sub .., binary_bufs_sub .., nullary_bufs_sub .., binary_bufs_sub ..⟩

/-! ## The buffers after the operations, from any contents

The column and row sums are kept folded while the composed terms are compared: the comparison is of the operations'
composition with the named terms, argument by argument, and never looks inside a sum. -/

attribute [local irreducible] Host.reduceAdd in
set_option maxRecDepth 8192 in
set_option maxHeartbeats 4000000 in
/-- The first result's buffer holds the named term of the pair (anchor, positive): each operation's result is its
    function of its operands' contents, a buffer no later operation writes keeps its contents, and the composition so
    read is the term's own definition unfolded. -/
theorem res0_eq (V : Valuation τ sig (Elt F)) :
    after ops V (main_v32 : DevRef τ sig)
      = RT.resOf (F := F) (V (main_arg0 : DevRef τ sig)) (V (main_arg1 : DevRef τ sig)) := by
  after_results_simp
  unfold RT.resOf RT.mdOf RT.negOf RT.qOf RT.scaledOf RT.diffOf RT.varOf RT.centredOf RT.meanOf RT.countOf RT.inputOf
  rfl

attribute [local irreducible] Host.reduceAdd in
set_option maxRecDepth 8192 in
set_option maxHeartbeats 4000000 in
/-- The second result's buffer holds the named term of the pair (anchor, negative). -/
theorem res1_eq (V : Valuation τ sig (Elt F)) :
    after ops V (main_v33 : DevRef τ sig)
      = RT.resOf (F := F) (V (main_arg0 : DevRef τ sig)) (V (main_arg2 : DevRef τ sig)) := by
  after_results_simp
  unfold RT.resOf RT.mdOf RT.negOf RT.qOf RT.scaledOf RT.diffOf RT.varOf RT.centredOf RT.meanOf RT.countOf RT.inputOf
  rfl

/-- No operation writes an argument's buffer: the anchor's contents are what they were. -/
theorem arg0_eq (V : Valuation τ sig (Elt F)) :
    after ops V (main_arg0 : DevRef τ sig) = V (main_arg0 : DevRef τ sig) := by
  after_results_simp

/-- The positive's contents are what they were. -/
theorem arg1_eq (V : Valuation τ sig (Elt F)) :
    after ops V (main_arg1 : DevRef τ sig) = V (main_arg1 : DevRef τ sig) := by
  after_results_simp

/-- The negative's contents are what they were. -/
theorem arg2_eq (V : Valuation τ sig (Elt F)) :
    after ops V (main_arg2 : DevRef τ sig) = V (main_arg2 : DevRef τ sig) := by
  after_results_simp

/-- The run, read: both results at their terms of the launch contents of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = RT.resOf (F := F) (m ((c.tc : Thread nD τ).loc main_arg0)) (m ((c.tc : Thread nD τ).loc main_arg1))
      ∧ r.2.mem ((c.tc : Thread nD τ).loc main_v33)
          = RT.resOf (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono
    (fun _ h c => ⟨(h c main_v32).trans (res0_eq _), (h c main_v33).trans (res1_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.RV

end
-- ==== Proof.RefRead.lean ====
/-
  The reference's result term read at a row, over the extended reals: the zero word plus the sum over the 8192 columns
  of (the masked root of the contraction of the scaled difference's row with the difference's row, plus e6).
-/
import proofs.«427105_j86861418594470_3_alg».proof.Proof.Gen.ReferenceIdeal
import proofs.«427105_j86861418594470_3_alg».proof.Proof.RefTerm
import proofs.«427105_j86861418594470_3_alg».proof.Proof.MdSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RV

open Idealize.ShloMosaic Idealize.ShloMosaic.TcCoe Idealize.SL.Sem Idealize.ShloMosaic.ValueIdx
open Idealize.ShloMosaic.Pipeline (Dat)
open Cert.ReferenceIdeal Cert.ReferenceIdeal.Gen

/-! ## The contraction's operand indices, axis by axis

The matrix q contracts axis 1 of both operands: at the result index (n, k) and the contraction index d the left operand
is read at (n, d) and the right at (k, d). -/

theorem lhs_q_0 (i : S8192x8192.Idx) (q : dot_S8192x64_S8192x64_S8192x8192_1_1_0_0_n_n.contr.Idx) :
    (dot_S8192x64_S8192x64_S8192x8192_1_1_0_0_n_n.lhsIdx i q 0).val = (i 0).val := by
  unfold DotDims.lhsIdx
  rw [dif_neg (show ¬(0 : Fin S8192x64.rank) ∈ dot_S8192x64_S8192x64_S8192x8192_1_1_0_0_n_n.lhsBatch by decide),
    dif_pos (show (0 : Fin S8192x64.rank) ∈ dot_S8192x64_S8192x64_S8192x8192_1_1_0_0_n_n.lhsNonContracting by decide)]
  rfl

theorem lhs_q_1 (i : S8192x8192.Idx) (q : dot_S8192x64_S8192x64_S8192x8192_1_1_0_0_n_n.contr.Idx) :
    (dot_S8192x64_S8192x64_S8192x8192_1_1_0_0_n_n.lhsIdx i q 1).val = (q ⟨0, by decide⟩).val :=
  dot_S8192x64_S8192x64_S8192x8192_1_1_0_0_n_n.lhsIdx_val_of_single rfl i q

theorem rhs_q_0 (i : S8192x8192.Idx) (q : dot_S8192x64_S8192x64_S8192x8192_1_1_0_0_n_n.contr.Idx) :
    (dot_S8192x64_S8192x64_S8192x8192_1_1_0_0_n_n.rhsIdx i q 0).val = (i 1).val := by
  unfold DotDims.rhsIdx
  rw [dif_neg (show ¬(0 : Fin S8192x64.rank) ∈ dot_S8192x64_S8192x64_S8192x8192_1_1_0_0_n_n.rhsBatch by decide),
    dif_pos (show (0 : Fin S8192x64.rank) ∈ dot_S8192x64_S8192x64_S8192x8192_1_1_0_0_n_n.rhsNonContracting by decide)]
  rfl

theorem rhs_q_1 (i : S8192x8192.Idx) (q : dot_S8192x64_S8192x64_S8192x8192_1_1_0_0_n_n.contr.Idx) :
    (dot_S8192x64_S8192x64_S8192x8192_1_1_0_0_n_n.rhsIdx i q 1).val = (q ⟨0, by decide⟩).val :=
  dot_S8192x64_S8192x64_S8192x8192_1_1_0_0_n_n.rhsIdx_val_of_single rfl i q

/-- The matrix q at (n, k) is the contraction over the 64 features of row n of the scaled difference with row k of the
    difference. -/
theorem qOf_apply (a b : RT.HV Ideal S8192x64) (n k : Fin 8192) :
    RT.qOf (F := Ideal) a b (ix2 n k) = Cert.Md.dotAt (RT.scaledOf (F := Ideal) a b) (RT.diffOf (F := Ideal) a b) n k := by
  unfold RT.qOf Cert.Md.dotAt
  simp only [Host.dotGeneral]
  rw [Ideal.dotGeneral_apply, ← Equiv.sum_comp (contrEquiv1 dot_S8192x64_S8192x64_S8192x8192_1_1_0_0_n_n 64 rfl rfl).symm]
  refine Finset.sum_congr rfl fun d _ => ?_
  have hk := contrEquiv1_symm_val dot_S8192x64_S8192x64_S8192x8192_1_1_0_0_n_n 64 rfl rfl d
  have el : dot_S8192x64_S8192x64_S8192x8192_1_1_0_0_n_n.lhsIdx (ix2 n k) ((contrEquiv1 dot_S8192x64_S8192x64_S8192x8192_1_1_0_0_n_n 64 rfl rfl).symm d) = ix2 n d := funext fun c => Fin.ext (by
    match c with
    | ⟨0, _⟩ => exact lhs_q_0 _ _
    | ⟨1, _⟩ => exact (lhs_q_1 _ _).trans hk)
  have er : dot_S8192x64_S8192x64_S8192x8192_1_1_0_0_n_n.rhsIdx (ix2 n k) ((contrEquiv1 dot_S8192x64_S8192x64_S8192x8192_1_1_0_0_n_n 64 rfl rfl).symm d) = ix2 k d := funext fun c => Fin.ext (by
    match c with
    | ⟨0, _⟩ => exact rhs_q_0 _ _
    | ⟨1, _⟩ => exact (rhs_q_1 _ _).trans hk)
  rw [el, er]

/-- A scalar word broadcast over the matrix reads that word at every index. -/
theorem splat_apply (w : BitVec 32) (i : S8192x8192.Idx) :
    broadcastInDim S8192x8192 ![] bcast_S_S8192x8192 (constant (F := Ideal) S_ .f32 w) i = Ideal.ofBits .f32 w := by
  rw [broadcastInDim_scalar_apply]
  rfl

/-- The masked roots at an index are the masked root of q there: the comparison with the zero word, the two selects and
    the square root act entry by entry, and a broadcast scalar reads its one word everywhere. -/
theorem mdOf_apply (a b : RT.HV Ideal S8192x64) (i : S8192x8192.Idx) :
    RT.mdOf (F := Ideal) a b i = Cert.Md.md (RT.qOf (F := Ideal) a b i) := by
  unfold RT.mdOf RT.negOf Cert.Md.md
  simp only [select_apply, cmpf_apply, Host.sqrt, Ideal.hostUnary_sqrt_def, Ideal.cmpf_def, id]
  rw [splat_apply, splat_apply]

/-- The row sum's shape fact in the form that names the inserted index. -/
theorem reduces_rows : Shape.Reduces S8192x8192 [1] S8192 := by decide

/-- Inserting the column k into the row index n gives the matrix index (n, k). -/
theorem lift_rows (n k : Fin 8192) : reduces_rows.lift (ix1 n) k = ix2 n k :=
  funext fun c => Fin.ext (by
    match c with
    | ⟨0, _⟩ => rfl
    | ⟨1, _⟩ => rfl)

/-- The result term at row n is the specification's row sum of the pair's scaled difference and difference. -/
theorem resOf_apply (a b : RT.HV Ideal S8192x64) (n : Fin 8192) :
    RT.resOf (F := Ideal) a b (ix1 n) = Cert.Md.rowsum (RT.scaledOf (F := Ideal) a b) (RT.diffOf (F := Ideal) a b) n := by
  unfold RT.resOf Cert.Md.rowsum
  rw [hostReduceAdd_apply, Ideal.hostReduceAdd_single reducesTo_S8192x8192_S8192_d1 reduces_rows, constant_apply]
  refine congrArg (Cert.Md.Z + ·) (Finset.sum_congr rfl fun (k : Fin 8192) _ => ?_)
  rw [lift_rows, addf_apply, mdOf_apply, qOf_apply, splat_apply]

end Cert.ReferenceIdeal.RV

end
-- ==== Proof.MdAlgebra.lean ====
/-
  The one algebraic fact that joins the two programs: the kernel's accumulated sum over eight column tiles, each with
  the tile constant c added, is the reference's sum over all 8192 columns of (masked root + e6).  Two ingredients:
  c is EXACTLY 1024 copies of e6 (the two f32 words share the significand 8796093 = 2^23 + 0x0637BD and their exponents
  differ by ten, so c = 8796093 * 2^-33 = 1024 * (8796093 * 2^-43)), and a sum over 8192 = 8 * 1024 columns is the sum
  over the tiles of the sums over a tile's columns.  Only commutativity and associativity of the extended reals' addition
  are used, which hold at the infinities too; nothing here asks the summands to be finite.
-/
import proofs.«427105_j86861418594470_3_alg».proof.Proof.MdSpec
import Mathlib.Algebra.BigOperators.Fin
import Mathlib.Logic.Equiv.Fin.Basic

noncomputable section

namespace Cert.Md

open Idealize.ShloMosaic Idealize.ShloMosaic.ValueIdx

/-- The word of 1e-6 denotes 8796093 * 2^-43. -/
theorem E6_val : E6 = (((8796093 : ℕ) * (2 : ℝ) ^ (-43 : ℤ) : ℝ) : EReal) := by
  simp [Ideal.ofBits, Ideal.ieee, -EReal.coe_mul]

/-- The word of 1.024e-3 denotes 8796093 * 2^-33. -/
theorem C_val : C = (((8796093 : ℕ) * (2 : ℝ) ^ (-33 : ℤ) : ℝ) : EReal) := by
  simp [Ideal.ofBits, Ideal.ieee, -EReal.coe_mul]

/-- The kernel's tile constant is 1024 copies of the reference's e6. -/
theorem C_eq : C = (1024 : ℕ) • E6 := by
  rw [E6_val, C_val, ← EReal.coe_nsmul]
  congr 1
  rw [nsmul_eq_mul]
  have h : (2 : ℝ) ^ (-33 : ℤ) = 1024 * (2 : ℝ) ^ (-43 : ℤ) := by
    rw [show (-33 : ℤ) = 10 + (-43) by norm_num, zpow_add₀ (by norm_num : (2 : ℝ) ≠ 0)]
    norm_num
  rw [h]; push_cast; ring

/-- Column 1024 J + l is the pair (J, l) under the standard bijection of Fin 8 x Fin 1024 with Fin 8192. -/
theorem colIdx_eq (J : Fin 8) (l : Fin 1024) : (finProdFinEquiv (J, l) : Fin (8 * 1024)) = colIdx J l := by
  apply Fin.ext
  simp [finProdFinEquiv, colIdx]
  omega

/-- A sum over the 8192 columns is the sum over the eight tiles of the sums over each tile's 1024 columns. -/
theorem sum_tiles (g : Fin 8192 → EReal) : ∑ k : Fin 8192, g k = ∑ J : Fin 8, ∑ l : Fin 1024, g (colIdx J l) := by
  rw [← Equiv.sum_comp (finProdFinEquiv : Fin 8 × Fin 1024 ≃ Fin (8 * 1024)) g, Fintype.sum_prod_type]
  exact Finset.sum_congr rfl fun J _ => Finset.sum_congr rfl fun l _ => by rw [colIdx_eq]

/-- The kernel's accumulated sum is the reference's row sum, when slab b of the stacked arrays is the pair's (s, r):
    tile by tile, (sum of the masked roots) + c = sum of (masked root + e6) since c is 1024 copies of e6. -/
theorem kacc_eq_rowsum (S R : (⟨3, ![2, 8192, 64]⟩ : Shape).Idx → EReal) (s r : (⟨2, ![8192, 64]⟩ : Shape).Idx → EReal)
    (b : Fin 2) (hS : ∀ n d, S (ix3 b n d) = s (ix2 n d)) (hR : ∀ n d, R (ix3 b n d) = r (ix2 n d)) (n : Fin 8192) :
    kacc S R b n = rowsum s r n := by
  unfold kacc rowsum
  congr 1
  rw [sum_tiles]
  refine Finset.sum_congr rfl fun J _ => ?_
  rw [Finset.sum_add_distrib, Finset.sum_const, Finset.card_univ, Fintype.card_fin, ← C_eq]
  congr 1
  unfold ktile dotAt
  exact Finset.sum_congr rfl fun l _ => by simp only [hS, hR]

end Cert.Md

end
-- ==== Proof.Bridge.lean ====
/-
  The two programs compute the same rows.  For a pair (a, b) of inputs the kernel's program stacks the scaled difference
  and the difference into the operands its region reads, and the reference contracts the very same two arrays: the host
  terms (the variance of the stacked inputs, the difference, their quotient) are the same operations of the same words
  in both programs.  So the kernel's accumulated sum over the eight column tiles and the reference's row sum over all
  columns are the two sides of the specification's identity (the tile constant is 1024 copies of e6).
-/
import proofs.«427105_j86861418594470_3_alg».proof.Proof.KRun
import proofs.«427105_j86861418594470_3_alg».proof.Proof.RefRun
import proofs.«427105_j86861418594470_3_alg».proof.Proof.RefRead
import proofs.«427105_j86861418594470_3_alg».proof.Proof.MdAlgebra

noncomputable section

namespace Cert.Bridge

open Idealize.ShloMosaic Idealize.ShloMosaic.TcCoe Idealize.SL.Sem Idealize.ShloMosaic.ValueIdx

/-- The scaled difference is one term in both programs: the same host operations of the same literal words. -/
theorem scaled_eq (a b : Cert.KernelIdeal.KT.HV Ideal Cert.KernelIdeal.S8192x64) :
    Cert.KernelIdeal.KT.scaledOf (F := Ideal) a b = Cert.ReferenceIdeal.RT.scaledOf (F := Ideal) a b := rfl

/-- So is the difference. -/
theorem diff_eq (a b : Cert.KernelIdeal.KT.HV Ideal Cert.KernelIdeal.S8192x64) :
    Cert.KernelIdeal.KT.diffOf (F := Ideal) a b = Cert.ReferenceIdeal.RT.diffOf (F := Ideal) a b := rfl

variable (m : (ℓ : Loc Cert.KernelIdeal.nD Cert.KernelIdeal.τ Cert.KernelIdeal.sig) → Buf (Elt Ideal) ℓ)

/-- The reference's result for (anchor, positive) is the kernel program's first result. -/
theorem res0_eq (c : Dev Cert.KernelIdeal.nD) :
    Cert.ReferenceIdeal.RT.resOf (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.KR.res m c 0 := by
  refine funext fun (i : Cert.ReferenceIdeal.S8192.Idx) => ?_
  obtain ⟨n, rfl⟩ : ∃ n : Fin 8192, i = ix1 n := ⟨i 0, eq_ix1 i⟩
  rw [Cert.ReferenceIdeal.RV.resOf_apply]
  exact (Cert.Md.kacc_eq_rowsum _ _ _ _ 0
    (fun n d => (Cert.KernelIdeal.KH.V_scaled0 m c n d).trans (congrFun (scaled_eq _ _) _))
    (fun n d => (Cert.KernelIdeal.KH.V_rhs0 m c n d).trans (congrFun (diff_eq _ _) _)) n).symm

/-- The reference's result for (anchor, negative) is the kernel program's second result. -/
theorem res1_eq (c : Dev Cert.KernelIdeal.nD) :
    Cert.ReferenceIdeal.RT.resOf (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
      = Cert.KernelIdeal.KR.res m c 1 := by
  refine funext fun (i : Cert.ReferenceIdeal.S8192.Idx) => ?_
  obtain ⟨n, rfl⟩ : ∃ n : Fin 8192, i = ix1 n := ⟨i 0, eq_ix1 i⟩
  rw [Cert.ReferenceIdeal.RV.resOf_apply]
  exact (Cert.Md.kacc_eq_rowsum _ _ _ _ 1
    (fun n d => (Cert.KernelIdeal.KH.V_scaled1 m c n d).trans (congrFun (scaled_eq _ _) _))
    (fun n d => (Cert.KernelIdeal.KH.V_rhs1 m c n d).trans (congrFun (diff_eq _ _) _)) n).symm

end Cert.Bridge

end
-- ==== Proof.lean ====
/-
  The kernel sums, row by row and for two pairs of inputs, the masked square roots of a diagonal-covariance Mahalanobis
  product q = (diff / var) diffᵀ, tiling the 8192 x 8192 matrix q into 1024 x 1024 tiles over a grid of 8 x 8 points
  and accumulating each row tile's sums across the eight column tiles; the reference forms q whole and sums its rows.
  Over the extended reals the two agree: the host operations before the kernel's region build the very arrays the
  reference contracts (the variance of the stacked inputs, the difference, their quotient: the same operations of the
  same words), the narrowing of the operands to bf16 is the identity, a tile's matrix product and lane sum are the
  plain sums, and the constant the kernel adds once per tile is exactly 1024 copies of the constant the reference adds
  once per entry; what remains is a re-association of a finite sum, valid at the infinities too, so the precondition is
  never opened.  The frames of the two kernel programs are the generated ones; the reference's frame is its run with the
  results dropped; the ideal pass rewrote nothing.
-/
import proofs.«427105_j86861418594470_3_alg».proof.Defs
import proofs.«427105_j86861418594470_3_alg».proof.Proof.Gen.Kernel
import proofs.«427105_j86861418594470_3_alg».proof.Proof.Gen.Kernel.Frame
import proofs.«427105_j86861418594470_3_alg».proof.Proof.Gen.KernelIdeal
import proofs.«427105_j86861418594470_3_alg».proof.Proof.Gen.KernelIdeal.Frame
import proofs.«427105_j86861418594470_3_alg».proof.Proof.Gen.ReferenceIdeal
import proofs.«427105_j86861418594470_3_alg».proof.Proof.Gen.Pre_finite_inputs
import proofs.«427105_j86861418594470_3_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.RV.run (F := Ideal) m ρ)

/-- The ideal pass rewrote no operation. -/
theorem preserves : Cert.preserves_Kernel_KernelIdeal := trivial

/-- From memories agreeing on the arguments both programs end with the same two result arrays: the kernel program's
    accumulated sums, which are the reference's row sums of the same pair. -/
theorem algebraic : Cert.algebraic_KernelIdeal_ReferenceIdeal := by
  intro m ρ m' ρ' _ hagree
  refine ⟨fun c => Cert.KernelIdeal.KR.res m c 0, fun c => Cert.KernelIdeal.KR.res m c 1,
    Cert.KernelIdeal.KR.run m ρ, ?_⟩
  refine (θ_run Cert.ReferenceIdeal.defs _ _).mono (fun _ h c => ?_) (Cert.ReferenceIdeal.RV.run (F := Ideal) m' ρ')
  obtain ⟨h1, h2, h3⟩ := h c
  refine ⟨h1.trans ?_, h2.trans ?_, h3⟩
  · rw [(hagree c).1, (hagree c).2.1]; exact Cert.Bridge.res0_eq m c
  · rw [(hagree c).1, (hagree c).2.2]; exact Cert.Bridge.res1_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
